-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S2x100 : Shape := ⟨2, ![2, 100]⟩
abbrev S2x2 : Shape := ⟨2, ![2, 2]⟩
abbrev S8192 : Shape := ⟨1, ![8192]⟩
abbrev S64 : Shape := ⟨1, ![64]⟩
abbrev S128 : Shape := ⟨1, ![128]⟩
abbrev S8192x8192 : Shape := ⟨2, ![8192, 8192]⟩
abbrev S2x128 : Shape := ⟨2, ![2, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S2x2 : S_.BroadcastsInDim S2x2 (![] : Fin 0 → Fin S2x2.rank)
  reducesTo_S2x2_S_d0_1 : S2x2.ReducesTo [0, 1] S_
  bcast_S_S8192 : S_.BroadcastsInDim S8192 (![] : Fin 0 → Fin S8192.rank)
  reducesTo_S8192_S_d0 : S8192.ReducesTo [0] S_
  bcast_S_S64 : S_.BroadcastsInDim S64 (![] : Fin 0 → Fin S64.rank)
  reducesTo_S64_S_d0 : S64.ReducesTo [0] S_
  bcast_S_S128 : S_.BroadcastsInDim S128 (![] : Fin 0 → Fin S128.rank)
  reducesTo_S128_S_d0 : S128.ReducesTo [0] S_
  bcast_S_S8192x8192 : S_.BroadcastsInDim S8192x8192 (![] : Fin 0 → Fin S8192x8192.rank)
  reducesTo_S8192x8192_S_d0_1 : S8192x8192.ReducesTo [0, 1] S_
  bcast_S_S2x128 : S_.BroadcastsInDim S2x128 (![] : Fin 0 → Fin S2x128.rank)
  reducesTo_S2x128_S_d0_1 : S2x128.ReducesTo [0, 1] S_

variable [Facts]

def fn_part1 {F : FTy → Type} [FloatOps F] (main_arg5 : FVec F S128 .f32) (main_arg6 : FVec F S8192x8192 .f32) (main_arg7 : FVec F S2x128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S8192x8192 .f32 := Host.absf main_arg6
  let main_cst_8 : FVec F S_ .f32 := constant S_ .f32 0x7F800000#32
  let main_v25 : FVec F S8192x8192 .f32 := broadcastInDim S8192x8192 ![] bcast_S_S8192x8192 main_cst_8
  let main_v26 : IVec S8192x8192 1 := cmpf .olt main_v24 main_v25
  let main_c_9 : IVec S_ 1 := constantI S_ 1 1#1
  let main_v27 : IVec S_ 1 := (fun x v => Host.reduce IntOp.andi x v reducesTo_S8192x8192_S_d0_1 h_S_) main_v26 main_c_9
  let main_v28 : IVec S_ 1 := andi main_v23 main_v27
  let main_v29 : FVec F S2x128 .f32 := Host.absf main_arg7
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  main_v33

def fn {F : FTy → Type} [FloatOps F] (main_arg0 : FVec F S8192x128 .f32) (main_arg1 : IVec S2x100 32) (main_arg2 : FVec F S2x2 .f32) (main_arg3 : FVec F S8192 .f32) (main_arg4 : FVec F S64 .f32) (main_arg5 : FVec F S128 .f32) (main_arg6 : FVec F S8192x8192 .f32) (main_arg7 : FVec F S2x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S2x2 .f32 := Host.absf main_arg2
  let main_cst_0 : FVec F S_ .f32 := constant S_ .f32 0x7F800000#32
  let main_v5 : FVec F S2x2 .f32 := broadcastInDim S2x2 ![] bcast_S_S2x2 main_cst_0
  let main_v6 : IVec S2x2 1 := cmpf .olt main_v4 main_v5
  let main_c_1 : IVec S_ 1 := constantI S_ 1 1#1
  let main_v7 : IVec S_ 1 := (fun x v => Host.reduce IntOp.andi x v reducesTo_S2x2_S_d0_1 h_S_) main_v6 main_c_1
  let main_v8 : IVec S_ 1 := andi main_v3 main_v7
  let main_v9 : FVec F S8192 .f32 := Host.absf main_arg3
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S8192x128 : Shape := ⟨2, ![8192, 128]⟩
abbrev S2x100 : Shape := ⟨2, ![2, 100]⟩
abbrev S2x2 : Shape := ⟨2, ![2, 2]⟩
abbrev S8192 : Shape := ⟨1, ![8192]⟩
abbrev S64 : Shape := ⟨1, ![64]⟩
abbrev S128 : Shape := ⟨1, ![128]⟩
abbrev S8192x8192 : Shape := ⟨2, ![8192, 8192]⟩
abbrev S2x128 : Shape := ⟨2, ![2, 128]⟩
abbrev S64x1 : Shape := ⟨2, ![64, 1]⟩
abbrev S1x128 : Shape := ⟨2, ![1, 128]⟩
abbrev S64x128 : Shape := ⟨2, ![64, 128]⟩
abbrev S128x1 : Shape := ⟨2, ![128, 1]⟩
abbrev S128x128 : Shape := ⟨2, ![128, 128]⟩
abbrev S64x1x128 : Shape := ⟨3, ![64, 1, 128]⟩
abbrev S1x128x128 : Shape := ⟨3, ![1, 128, 128]⟩
abbrev S64x128x128 : Shape := ⟨3, ![64, 128, 128]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 34
  | .vmem => 18
  | .smem => 0
  | _ => 0

abbrev bufTy : (tb : Table) → Fin (tcTables nBuf tb) → BufTy
  | .hbm, ⟨0, _⟩ => ⟨S8192x128, .f32⟩
  | .hbm, ⟨1, _⟩ => ⟨S2x100, .i32⟩
  | .hbm, ⟨2, _⟩ => ⟨S2x2, .f32⟩
  | .hbm, ⟨3, _⟩ => ⟨S8192, .f32⟩
  | .hbm, ⟨4, _⟩ => ⟨S64, .f32⟩
  | .hbm, ⟨5, _⟩ => ⟨S128, .f32⟩
  | .hbm, ⟨6, _⟩ => ⟨S8192x8192, .f32⟩
  | .hbm, ⟨7, _⟩ => ⟨S2x128, .f32⟩
  | .hbm, ⟨8, _⟩ => ⟨S64x1, .f32⟩
  | .hbm, ⟨9, _⟩ => ⟨S64x1, .f32⟩
  | .hbm, ⟨10, _⟩ => ⟨S1x128, .f32⟩
  | .hbm, ⟨11, _⟩ => ⟨S128, .f32⟩
  | .hbm, ⟨12, _⟩ => ⟨S1x128, .f32⟩
  | .hbm, ⟨13, _⟩ => ⟨S64x128, .f32⟩
  | .hbm, ⟨14, _⟩ => ⟨S64x128, .f32⟩
  | .hbm, ⟨15, _⟩ => ⟨S64x128, .f32⟩
  | .hbm, ⟨16, _⟩ => ⟨S64x128, .f32⟩
  | .hbm, ⟨17, _⟩ => ⟨S128x1, .f32⟩
  | .hbm, ⟨18, _⟩ => ⟨S128x1, .f32⟩
  | .hbm, ⟨19, _⟩ => ⟨S1x128, .f32⟩
  | .hbm, ⟨20, _⟩ => ⟨S128, .f32⟩
  | .hbm, ⟨21, _⟩ => ⟨S1x128, .f32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S64x1x128, .f32⟩
  | .hbm, ⟨27, _⟩ => ⟨S1x128x128, .f32⟩
  | .hbm, ⟨28, _⟩ => ⟨S64x128x128, .f32⟩
  | .hbm, ⟨29, _⟩ => ⟨S64x128x128, .f32⟩
  | .hbm, ⟨30, _⟩ => ⟨S64x128x128, .f32⟩
  | .hbm, ⟨31, _⟩ => ⟨S8192x128, .f32⟩
  | .hbm, ⟨32, _⟩ => ⟨S8192x128, .f32⟩
  | .hbm, ⟨33, _⟩ => ⟨S8192x128, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1024, .f32⟩
  | .local _ .vmem, ⟨5, _⟩ => ⟨S1024, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x1024, .f32⟩
  | .local _ .vmem, ⟨10, _⟩ => ⟨S1024x1024, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_9 : BitVec 32 := 0#32
  let v19 : BitVec 1 := Scalar.cmpi .ne v18 c0_i32_9
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_10 : BitVec 32 := 0#32
  let v19 : BitVec 1 := Scalar.cmpi .ne v18 c0_i32_10
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S64_S64x1_0 : S64.BroadcastsInDim S64x1 (![0] : Fin 1 → Fin S64x1.rank)
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  bcast_S128_S128x1_0 : S128.BroadcastsInDim S128x1 (![0] : Fin 1 → Fin S128x1.rank)
  slices_S2x128_S1x128_1_0 : S2x128.Slices ![1, 0] S1x128
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S64x128_S64x1x128_0_2 : S64x128.BroadcastsInDim S64x1x128 (![0, 2] : Fin 2 → Fin S64x1x128.rank)
  bcast_S128x128_S1x128x128_1_2 : S128x128.BroadcastsInDim S1x128x128 (![1, 2] : Fin 2 → Fin S1x128x128.rank)
  bcast_S64x1x128_S64x128x128_0_1_2 : S64x1x128.BroadcastsInDim S64x128x128 (![0, 1, 2] : Fin 3 → Fin S64x128x128.rank)
  bcast_S1x128x128_S64x128x128_0_1_2 : S1x128x128.BroadcastsInDim S64x128x128 (![0, 1, 2] : Fin 3 → Fin S64x128x128.rank)
  shapeCasts_S64x128x128_S8192x128 : S64x128x128.ShapeCasts S8192x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024_S1024_0 : ∀ a, (![0] : Fin 1 → Nat) a + S1024.size a ≤ S1024.size a
  h_S1024 : 0 < S1024.numel
  shapeCasts_S1024_S1024x1 : S1024.ShapeCasts S1024x1
  broadcasts_S1024x1_S1024x128 : S1024x1.Broadcasts S1024x128
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  dot_S1024x1024_S1024x128_S1024x128_0_0_1_1_n_n_wf : DotDims.WF S1024x1024 S1024x128 S1024x128 [0] [0] [1] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S8192.size a
  hwx0_2 : ∀ i : grid0.Coords, EltTy.bits .f32 = 32 ∨ (Rect.block (s := S8192) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .f32 = 32 ∨ (Rect.block (s := S8192x128) S1024x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .f32 = 32 ∨ (Rect.block (s := S8192x128) S1024x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S8192x128.size a
  hwx1_3 : ∀ i : grid1.Coords, EltTy.bits .f32 = 32 ∨ (Rect.block (s := S8192x128) S1024x128.size (cc1_transform_3 i) (hinb1_3 i)).WholeWords (EltTy.packing .f32)

variable [Facts₀]

def dot_S1024x1024_S1024x128_S1024x128_0_0_1_1_n_n : DotDims S1024x1024 S1024x128 S1024x128 where
  lhsContracting := [0]
  rhsContracting := [0]
  lhsNonContracting := [1]
  rhsNonContracting := [1]
  lhsBatch := []
  rhsBatch := []
  wf := dot_S1024x1024_S1024x128_S1024x128_0_0_1_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg6) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg6) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x128 : Shape := ⟨2, ![8192, 128]⟩
abbrev S2x100 : Shape := ⟨2, ![2, 100]⟩
abbrev S2x2 : Shape := ⟨2, ![2, 2]⟩
abbrev S8192 : Shape := ⟨1, ![8192]⟩
abbrev S64 : Shape := ⟨1, ![64]⟩
abbrev S128 : Shape := ⟨1, ![128]⟩
abbrev S8192x8192 : Shape := ⟨2, ![8192, 8192]⟩
abbrev S2x128 : Shape := ⟨2, ![2, 128]⟩
abbrev S8192x1 : Shape := ⟨2, ![8192, 1]⟩
abbrev S64x1 : Shape := ⟨2, ![64, 1]⟩
abbrev S1x128 : Shape := ⟨2, ![1, 128]⟩
abbrev S64x128 : Shape := ⟨2, ![64, 128]⟩
abbrev S128x1 : Shape := ⟨2, ![128, 1]⟩
abbrev S128x128 : Shape := ⟨2, ![128, 128]⟩
abbrev S64x1x128 : Shape := ⟨3, ![64, 1, 128]⟩
abbrev S1x128x128 : Shape := ⟨3, ![1, 128, 128]⟩
abbrev S64x128x128 : Shape := ⟨3, ![64, 128, 128]⟩

abbrev nBuf : Space → Nat
  | .hbm => 39
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S2x100, .i32⟩
  | .hbm, ⟨2, _⟩ => ⟨S2x2, .f32⟩
  | .hbm, ⟨3, _⟩ => ⟨S8192, .f32⟩
  | .hbm, ⟨4, _⟩ => ⟨S64, .f32⟩
  | .hbm, ⟨5, _⟩ => ⟨S128, .f32⟩
  | .hbm, ⟨6, _⟩ => ⟨S8192x8192, .f32⟩
  | .hbm, ⟨7, _⟩ => ⟨S2x128, .f32⟩
  | .hbm, ⟨8, _⟩ => ⟨S8192x8192, .f32⟩
  | .hbm, ⟨9, _⟩ => ⟨S8192x1, .f32⟩
  | .hbm, ⟨10, _⟩ => ⟨S8192x128, .f32⟩
  | .hbm, ⟨11, _⟩ => ⟨S8192x128, .f32⟩
  | .hbm, ⟨12, _⟩ => ⟨S8192x128, .f32⟩
  | .hbm, ⟨13, _⟩ => ⟨S64x1, .f32⟩
  | .hbm, ⟨14, _⟩ => ⟨S64x1, .f32⟩
  | .hbm, ⟨15, _⟩ => ⟨S1x128, .f32⟩
  | .hbm, ⟨16, _⟩ => ⟨S128, .f32⟩
  | .hbm, ⟨17, _⟩ => ⟨S1x128, .f32⟩
  | .hbm, ⟨18, _⟩ => ⟨S64x128, .f32⟩
  | .hbm, ⟨19, _⟩ => ⟨S64x128, .f32⟩
  | .hbm, ⟨20, _⟩ => ⟨S64x128, .f32⟩
  | .hbm, ⟨21, _⟩ => ⟨S64x128, .f32⟩
  | .hbm, ⟨22, _⟩ => ⟨S128x1, .f32⟩
  | .hbm, ⟨23, _⟩ => ⟨S128x1, .f32⟩
  | .hbm, ⟨24, _⟩ => ⟨S1x128, .f32⟩
  | .hbm, ⟨25, _⟩ => ⟨S128, .f32⟩
  | .hbm, ⟨26, _⟩ => ⟨S1x128, .f32⟩
  | .hbm, ⟨27, _⟩ => ⟨S128x128, .f32⟩
  | .hbm, ⟨28, _⟩ => ⟨S128x128, .f32⟩
  | .hbm, ⟨29, _⟩ => ⟨S128x128, .f32⟩
  | .hbm, ⟨30, _⟩ => ⟨S128x128, .f32⟩
  | .hbm, ⟨31, _⟩ => ⟨S64x1x128, .f32⟩
  | .hbm, ⟨32, _⟩ => ⟨S1x128x128, .f32⟩
  | .hbm, ⟨33, _⟩ => ⟨S64x128x128, .f32⟩
  | .hbm, ⟨34, _⟩ => ⟨S64x128x128, .f32⟩
  | .hbm, ⟨35, _⟩ => ⟨S64x128x128, .f32⟩
  | .hbm, ⟨36, _⟩ => ⟨S8192x128, .f32⟩
  | .hbm, ⟨37, _⟩ => ⟨S8192x128, .f32⟩
  | .hbm, ⟨38, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]

class Facts₀ : Prop where
  transposes_S8192x8192_S8192x8192_1_0 : S8192x8192.Transposes [1, 0] S8192x8192
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  bcast_S64_S64x1_0 : S64.BroadcastsInDim S64x1 (![0] : Fin 1 → Fin S64x1.rank)
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  bcast_S128_S128x1_0 : S128.BroadcastsInDim S128x1 (![0] : Fin 1 → Fin S128x1.rank)
  slices_S2x128_S1x128_1_0 : S2x128.Slices ![1, 0] S1x128
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S64x128_S64x1x128_0_2 : S64x128.BroadcastsInDim S64x1x128 (![0, 2] : Fin 2 → Fin S64x1x128.rank)
  bcast_S128x128_S1x128x128_1_2 : S128x128.BroadcastsInDim S1x128x128 (![1, 2] : Fin 2 → Fin S1x128x128.rank)
  bcast_S64x1x128_S64x128x128_0_1_2 : S64x1x128.BroadcastsInDim S64x128x128 (![0, 1, 2] : Fin 3 → Fin S64x128x128.rank)
  bcast_S1x128x128_S64x128x128_0_1_2 : S1x128x128.BroadcastsInDim S64x128x128 (![0, 1, 2] : Fin 3 → Fin S64x128x128.rank)
  shapeCasts_S64x128x128_S8192x128 : S64x128x128.ShapeCasts S8192x128
  dot_S8192x8192_S8192x128_S8192x128_1_0_0_1_n_n_wf : DotDims.WF S8192x8192 S8192x128 S8192x128 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.Bits.Shared.lean ====
import proofs.«100021_j83854941487389_1_alg».proof.Proof.Gen.Kernel.Launch
import proofs.«100021_j83854941487389_1_alg».proof.Proof.Gen.Kernel.Skeleton
import proofs.«100021_j83854941487389_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Region 0: the body's two branch conditions, where its output window is idle, its memrefs -/

/-- The first branch of kernel 0's body (the accumulator's reset) is taken when the reduction coordinate is 0. -/
abbrev cond0_0 (i : grid0.Coords) : Prop := (Scalar.cmpi .ne (Scalar.extui (Scalar.cmpi .eq (BitVec.ofNat 32 (i 1).val) 0#32)) 0#32) = 1#1
/-- Over the 8 × 8 grid in row-major order that is the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The second branch (the accumulator copied to the output block) is taken when the reduction coordinate is 7. -/
abbrev cond0_1 (i : grid0.Coords) : Prop := k0_cond2 i = 1#1
/-- That is the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-- The three input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the second branch is not taken the output window is idle and its block is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- Where it is taken the window is live. -/
theorem liveAt0_3 : ∀ t : Fin cfg0.N, cond0_1 (grid0.coords t) → cfg0.idle 3 (grid0.coords t) = false := by decide +kernel

/-- A view of the output block's shape through which its contents are stated. -/
abbrev VO0_3 : View sig .tc .vmem S1024x128 .f32 := (Memref.whole cc0_stg3_0 : Memref sig .tc .vmem S1024x128 .f32).view
/-- The accumulator scratch as a memref and as a view. -/
abbrev scM0 : Memref sig .tc .vmem S1024x128 .f32 := Memref.whole cc0_scratch0
abbrev VS0 : View sig .tc .vmem S1024x128 .f32 := (scM0).view

/-- Each window's current staging memref at point `t`, as the pipeline passes it to the body, and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .f32 := win0_3.stage (cfg0.slots t 3)
abbrev hs0_3 (t : Fin cfg0.N) : (ms0_3 t).IsWhole := hstage0_3 ((cfg0.slots t 3).cast nbuf0_3)

/-- The scoped buffers no window of region 0 stages, split at the region's accumulator scratch: that one buffer whole at
    some contents, every other one (the other region's staging buffers and scratch) unopened. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- The other scoped buffers of the core, which region 0's body never touches. -/
abbrev others0 (c : Dev nD) : sProp 𝕄 :=
  Pipeline.scopedRestBut (Ix := Unit) (Name := ℕ) (U := UR sig nD τ) (Lvl := ℕ) (Val := Elt F) spec0 c [cc0_scratch0]

/-- What the region hands its body besides the windows: the accumulator scratch owned at some contents, the other
    scoped buffers, the generator register at some state. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA; rw [scopedRest0_split]; simp only [scM0, owns_whole]; try rfl

/-! ## Region 1: the body's two branch conditions, where its output window is idle, its memrefs -/

/-- The first branch of kernel 1's body (the accumulator's reset) is taken when the reduction coordinate is 0. -/
abbrev cond1_0 (i : grid1.Coords) : Prop := (Scalar.cmpi .ne (Scalar.extui (Scalar.cmpi .eq (BitVec.ofNat 32 (i 1).val) 0#32)) 0#32) = 1#1
/-- Over the 8 × 8 grid in row-major order that is the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The second branch (the accumulator copied to the output block) is taken when the reduction coordinate is 7. -/
abbrev cond1_1 (i : grid1.Coords) : Prop := k1_cond2 i = 1#1
/-- That is the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the second branch is not taken the output window is idle and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- Where it is taken the window is live. -/
theorem liveAt1_3 : ∀ t : Fin cfg1.N, cond1_1 (grid1.coords t) → cfg1.idle 3 (grid1.coords t) = false := by decide +kernel

/-- A view of the output block's shape through which its contents are stated. -/
abbrev VO1_3 : View sig .tc .vmem S1024x128 .f32 := (Memref.whole cc1_stg3_0 : Memref sig .tc .vmem S1024x128 .f32).view
/-- The accumulator scratch as a memref and as a view. -/
abbrev scM1 : Memref sig .tc .vmem S1024x128 .f32 := Memref.whole cc1_scratch0
abbrev VS1 : View sig .tc .vmem S1024x128 .f32 := (scM1).view

/-- Each window's current staging memref at point `t`, as the pipeline passes it to the body, and its wholeness. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)

/-- The scoped buffers no window of region 1 stages, split at the region's accumulator scratch: that one buffer whole at
    some contents, every other one (the other region's staging buffers and scratch) unopened. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The other scoped buffers of the core, which region 1's body never touches. -/
abbrev others1 (c : Dev nD) : sProp 𝕄 :=
  Pipeline.scopedRestBut (Ix := Unit) (Name := ℕ) (U := UR sig nD τ) (Lvl := ℕ) (Val := Elt F) spec1 c [cc1_scratch0]

/-- What the region hands its body besides the windows: the accumulator scratch owned at some contents, the other
    scoped buffers, the generator register at some state. -/
theorem PhiA1_eq (c : Dev nD) :
    (Pipeline.ΦA spec1 c : sProp 𝕄)
      = iprop(iprop((∃ d, owns (c : Thread nD τ) scM1 fullShare d) ∗ others1 c) ∗ (∃ r, prngReg c r)) := by
  unfold Pipeline.ΦA; rw [scopedRest1_split]; simp only [scM1, owns_whole]; try rfl

end Cert.Kernel.Hand

end
-- ==== Proof.Bits.Run0A.lean ====
import proofs.«100021_j83854941487389_1_alg».proof.Proof.Bits.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the run's proof term is large
set_option maxHeartbeats 1000000 in
/-- Kernel 0's body at the points where the accumulator is reset (reduction coordinate 0): the scratch may hold anything on entry; the output block's buffer is left as found.
    On whole staging memrefs holding the three input blocks, the body runs to a continuation that holds the inputs as they were and
    each buffer it stored into with its stores written over what it held: the stores, as pieces (last first), are found by running the body. -/
noncomputable def kernelRun0_A (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i)
    (x0 : Vec F S1024x1024 .f32) (x1 : Vec F S1024x128 .f32) (x2 : Vec F S1024 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul1_kernel i arg2 harg2 arg3 harg3 arg4 harg4 arg5 harg5 arg6 harg6) K } := by
  refine ⟨[], ?_, fun xi3 E K => ?run⟩
  case run =>
    simp only [cc0__matmul1_kernel_eq_skeleton]; unfold cc0__matmul1_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.Bits.Run0B.lean ====
import proofs.«100021_j83854941487389_1_alg».proof.Proof.Bits.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the run's proof term is large
set_option maxHeartbeats 1000000 in
/-- Kernel 0's body at the points strictly inside a reduction (coordinate 1 to 6): the scratch holds what the point before left; the output block's buffer is left as found.
    On whole staging memrefs holding the three input blocks, the body runs to a continuation that holds the inputs as they were and
    each buffer it stored into with its stores written over what it held: the stores, as pieces (last first), are found by running the body. -/
noncomputable def kernelRun0_B (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : ¬cond0_1 i)
    (x0 : Vec F S1024x1024 .f32) (x1 : Vec F S1024x128 .f32) (x2 : Vec F S1024 .f32) (xs0 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul1_kernel i arg2 harg2 arg3 harg3 arg4 harg4 arg5 harg5 arg6 harg6) K } := by
  refine ⟨[], ?_, fun xi3 E K => ?run⟩
  case run =>
    simp only [cc0__matmul1_kernel_eq_skeleton]; unfold cc0__matmul1_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.Bits.Run0C.lean ====
import proofs.«100021_j83854941487389_1_alg».proof.Proof.Bits.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the run's proof term is large
set_option maxHeartbeats 1000000 in
/-- Kernel 0's body at the points that end a reduction (coordinate 7): the scratch holds what the point before left and is copied into the output block's buffer.
    On whole staging memrefs holding the three input blocks, the body runs to a continuation that holds the inputs as they were and
    each buffer it stored into with its stores written over what it held: the stores, as pieces (last first), are found by running the body. -/
noncomputable def kernelRun0_C (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S1024x1024 .f32) (x1 : Vec F S1024x128 .f32) (x2 : Vec F S1024 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul1_kernel i arg2 harg2 arg3 harg3 arg4 harg4 arg5 harg5 arg6 harg6) K } := by
  refine ⟨?_, ?_, fun E K => ?run⟩
  case run =>
    simp only [cc0__matmul1_kernel_eq_skeleton]; unfold cc0__matmul1_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.Bits.Frame0.lean ====
import proofs.«100021_j83854941487389_1_alg».proof.Proof.Bits.Run0A
import proofs.«100021_j83854941487389_1_alg».proof.Proof.Bits.Run0B
import proofs.«100021_j83854941487389_1_alg».proof.Proof.Bits.Run0C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0, at a parameter `V`: the core's buffer contents when the region is entered -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data whose
    array is `V`'s and whose body leaves the block in place: the windows are uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the accumulator scratch and in the output block's buffer -/

/-- The reset case's stores cover the scratch. -/
theorem scover0_A (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i) (x0 : Vec F S1024x1024 .f32) (x1 : Vec F S1024x128 .f32) (x2 : Vec F S1024 .f32) (y : S1024x128.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1024x128.size (by sl_kernel_rfl) y
/-- What the reset case leaves in the scratch: its stores read back. -/
def sout0_A (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i) (x0 : Vec F S1024x1024 .f32) (x1 : Vec F S1024x128 .f32) (x2 : Vec F S1024 .f32) : Vec F S1024x128 .f32 :=
  VS0.read (Elt F) (VS0.writes (Elt F) VS0.junk (kernelRun0_A c i arg2 harg2 arg3 harg3 arg4 harg4 arg5 harg5 arg6 harg6 hc0 hc1 x0 x1 x2).2.1)
/-- The reset case stores nothing into the output block's buffer: a placeholder nothing consults (the window is idle there and not written back). -/
def out0_A (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i) (x0 : Vec F S1024x1024 .f32) (x1 : Vec F S1024x128 .f32) (x2 : Vec F S1024 .f32) : Vec F S1024x128 .f32 :=
  VO0_3.read (Elt F) (VO0_3.writes (Elt F) VO0_3.junk (kernelRun0_A c i arg2 harg2 arg3 harg3 arg4 harg4 arg5 harg5 arg6 harg6 hc0 hc1 x0 x1 x2).1)

/-- The middle case's store covers the scratch. -/
theorem scover0_B (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : ¬cond0_1 i) (x0 : Vec F S1024x1024 .f32) (x1 : Vec F S1024x128 .f32) (x2 : Vec F S1024 .f32) (xs0 : Vec F S1024x128 .f32) (y : S1024x128.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S1024x128.size (by sl_kernel_rfl) y
/-- What the middle case leaves in the scratch. -/
def sout0_B (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : ¬cond0_1 i) (x0 : Vec F S1024x1024 .f32) (x1 : Vec F S1024x128 .f32) (x2 : Vec F S1024 .f32) (xs0 : Vec F S1024x128 .f32) : Vec F S1024x128 .f32 :=
  VS0.read (Elt F) (VS0.writes (Elt F) VS0.junk (kernelRun0_B c i arg2 harg2 arg3 harg3 arg4 harg4 arg5 harg5 arg6 harg6 hc0 hc1 x0 x1 x2 xs0).2.1)
/-- The middle case stores nothing into the output block's buffer either: a placeholder. -/
def out0_B (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : ¬cond0_1 i) (x0 : Vec F S1024x1024 .f32) (x1 : Vec F S1024x128 .f32) (x2 : Vec F S1024 .f32) (xs0 : Vec F S1024x128 .f32) : Vec F S1024x128 .f32 :=
  VO0_3.read (Elt F) (VO0_3.writes (Elt F) VO0_3.junk (kernelRun0_B c i arg2 harg2 arg3 harg3 arg4 harg4 arg5 harg5 arg6 harg6 hc0 hc1 x0 x1 x2 xs0).1)

/-- The last case's store covers the scratch, -/
theorem scover0_C (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i) (x0 : Vec F S1024x1024 .f32) (x1 : Vec F S1024x128 .f32) (x2 : Vec F S1024 .f32) (xs0 : Vec F S1024x128 .f32) (y : S1024x128.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1024x128.size (by sl_kernel_rfl) y
/-- and its copy covers the output block's buffer. -/
theorem cover0_C (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i) (x0 : Vec F S1024x1024 .f32) (x1 : Vec F S1024x128 .f32) (x2 : Vec F S1024 .f32) (xs0 : Vec F S1024x128 .f32) (y : S1024x128.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1024x128.size (by sl_kernel_rfl) y
/-- What the last case leaves in the scratch, -/
def sout0_C (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i) (x0 : Vec F S1024x1024 .f32) (x1 : Vec F S1024x128 .f32) (x2 : Vec F S1024 .f32) (xs0 : Vec F S1024x128 .f32) : Vec F S1024x128 .f32 :=
  VS0.read (Elt F) (VS0.writes (Elt F) VS0.junk (kernelRun0_C c i arg2 harg2 arg3 harg3 arg4 harg4 arg5 harg5 arg6 harg6 hc0 hc1 x0 x1 x2 xs0).2.1)
/-- and in the output block's buffer. -/
def out0_C (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i) (x0 : Vec F S1024x1024 .f32) (x1 : Vec F S1024x128 .f32) (x2 : Vec F S1024 .f32) (xs0 : Vec F S1024x128 .f32) : Vec F S1024x128 .f32 :=
  VO0_3.read (Elt F) (VO0_3.writes (Elt F) VO0_3.junk (kernelRun0_C c i arg2 harg2 arg3 harg3 arg4 harg4 arg5 harg5 arg6 harg6 hc0 hc1 x0 x1 x2 xs0).1)

/-! ## What the output block's buffer and the scratch hold after each point -/

/-- The pair (output block's buffer, accumulator scratch) after the body at position `n` of the grid's row-major order: the case the
    reduction coordinate `n % 8` selects, run on the point's input blocks, the scratch — where the case reads it — at what position `n - 1` left. -/
def outsAt0 (c : Dev nD) : (n : ℕ) → n < cfg0.N → Vec F S1024x128 .f32 × Vec F S1024x128 .f32
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 8 = 0 then
      if h1 : (n + 1) % 8 = 7 then
        False.elim (by omega)
      else
        (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 8 = 7 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- At a point that resets the accumulator: that case's contents. -/
theorem outsAt0_A (c : Dev nD) (t : Fin cfg0.N) (h0 : t.val % 8 = 0) (h1 : ¬t.val % 8 = 7) :
    outsAt0 V c t.val t.isLt = (out0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t), sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- At a point strictly inside a reduction: that case's contents over what the point before left. -/
theorem outsAt0_B (c : Dev nD) (t : Fin cfg0.N) (h0 : ¬t.val % 8 = 0) (h1 : ¬t.val % 8 = 7) :
    outsAt0 V c t.val t.isLt = (out0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point that ends a reduction: that case's contents over what the point before left. -/
theorem outsAt0_C (c : Dev nD) (t : Fin cfg0.N) (h0 : ¬t.val % 8 = 0) (h1 : t.val % 8 = 7) :
    outsAt0 V c t.val t.isLt = (out0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point whatever the region hands its body (the scratch at anything);
    afterwards the scratch at what the point before left in it, the other scoped buffers untouched, the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ others0 c) ∗ (∃ r, prngReg c r)) := by
  cases n with
  | zero => exact absurd rfl hz
  | succ n => rfl

/-! ## The pipeline's proof data -/

/-- The proof data of pipeline 0 on core `c`: the arrays as the region finds them; after the body at point `t` each input's buffer
    at its block and the output's at `outsAt0`'s first component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- An input window's buffer is handed back holding its block. -/
theorem leaves0_0 (c : Dev nD) (t : Fin cfg0.N) : (dat0 V c).leavesExact 0 t = owns (c : Thread nD τ) (ms0_0 t) fullShare (iblk0 V c 0 t) := by
  rw [show (dat0 V c).leavesExact 0 t = owns (c : Thread nD τ) (ms0_0 t) fullShare ((dat0 V c).after 0 t) from by
    unfold Dat.leavesExact; rw [liveAt0_0 t], after0_0]
theorem leaves0_1 (c : Dev nD) (t : Fin cfg0.N) : (dat0 V c).leavesExact 1 t = owns (c : Thread nD τ) (ms0_1 t) fullShare (iblk0 V c 1 t) := by
  rw [show (dat0 V c).leavesExact 1 t = owns (c : Thread nD τ) (ms0_1 t) fullShare ((dat0 V c).after 1 t) from by
    unfold Dat.leavesExact; rw [liveAt0_1 t], after0_1]
theorem leaves0_2 (c : Dev nD) (t : Fin cfg0.N) : (dat0 V c).leavesExact 2 t = owns (c : Thread nD τ) (ms0_2 t) fullShare (iblk0 V c 2 t) := by
  rw [show (dat0 V c).leavesExact 2 t = owns (c : Thread nD τ) (ms0_2 t) fullShare ((dat0 V c).after 2 t) from by
    unfold Dat.leavesExact; rw [liveAt0_2 t], after0_2]

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the reduction coordinate says which case the point is in; the
    invariant hands the body the scratch at what the point before left (at anything at the first point) and takes it back at this
    point's contents, the stores covering it; the output block's buffer is handed back untouched except where a reduction ends; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 64 := lt_of_lt_of_eq t.isLt (show cfg0.N = 64 from N_0)
  by_cases h0 : t.val % 8 = 0
  · by_cases h1 : t.val % 8 = 7
    · exfalso; omega
    · rw [Dat.leavesExact_idle (dat0 V c) 3 t (idleAt0_3 t (fun h => h1 ((hcond0_1 t).mp h))) (noFlush0_3 t (fun h => h1 ((hcond0_1 t).mp h)))]
      rw [outsAt0_A V c t h0 h1]
      unfold sout0_A; (try dsimp only)
      by_cases hz : t.val = 0
      · rw [PhiS0_castSucc V c t, PhiS0_zero V c _ _ hz, PhiA0_eq]
        iintro ⟨⟨⟨HS0, Hoth⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · have hz : t.val ≠ 0 := fun h => h0 (by rw [h])
    by_cases h1 : t.val % 8 = 7
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C sout0_C; (try dsimp only)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B; (try dsimp only)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the region hands its body is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives it back: the scratch's named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

end Cert.Kernel.Hand

end
-- ==== Proof.Bits.Run1A.lean ====
import proofs.«100021_j83854941487389_1_alg».proof.Proof.Bits.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the run's proof term is large
set_option maxHeartbeats 1000000 in
/-- Kernel 1's body at the points where the accumulator is reset (reduction coordinate 0): the scratch may hold anything on entry; the output block's buffer is left as found.
    On whole staging memrefs holding the three input blocks, the body runs to a continuation that holds the inputs as they were and
    each buffer it stored into with its stores written over what it held: the stores, as pieces (last first), are found by running the body. -/
noncomputable def kernelRun1_A (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i)
    (x0 : Vec F S1024x1024 .f32) (x1 : Vec F S1024x128 .f32) (x2 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul2_kernel i arg2 harg2 arg3 harg3 arg4 harg4 arg5 harg5 arg6 harg6) K } := by
  refine ⟨[], ?_, fun xi3 E K => ?run⟩
  case run =>
    simp only [cc1__matmul2_kernel_eq_skeleton]; unfold cc1__matmul2_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.Bits.Run1B.lean ====
import proofs.«100021_j83854941487389_1_alg».proof.Proof.Bits.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the run's proof term is large
set_option maxHeartbeats 1000000 in
/-- Kernel 1's body at the points strictly inside a reduction (coordinate 1 to 6): the scratch holds what the point before left; the output block's buffer is left as found.
    On whole staging memrefs holding the three input blocks, the body runs to a continuation that holds the inputs as they were and
    each buffer it stored into with its stores written over what it held: the stores, as pieces (last first), are found by running the body. -/
noncomputable def kernelRun1_B (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i)
    (x0 : Vec F S1024x1024 .f32) (x1 : Vec F S1024x128 .f32) (x2 : Vec F S1024x128 .f32) (xs0 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul2_kernel i arg2 harg2 arg3 harg3 arg4 harg4 arg5 harg5 arg6 harg6) K } := by
  refine ⟨[], ?_, fun xi3 E K => ?run⟩
  case run =>
    simp only [cc1__matmul2_kernel_eq_skeleton]; unfold cc1__matmul2_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.Bits.Run1C.lean ====
import proofs.«100021_j83854941487389_1_alg».proof.Proof.Bits.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the run's proof term is large
set_option maxHeartbeats 1000000 in
/-- Kernel 1's body at the points that end a reduction (coordinate 7): the scratch holds what the point before left and is copied into the output block's buffer.
    On whole staging memrefs holding the three input blocks, the body runs to a continuation that holds the inputs as they were and
    each buffer it stored into with its stores written over what it held: the stores, as pieces (last first), are found by running the body. -/
noncomputable def kernelRun1_C (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1024x1024 .f32) (x1 : Vec F S1024x128 .f32) (x2 : Vec F S1024x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__matmul2_kernel i arg2 harg2 arg3 harg3 arg4 harg4 arg5 harg5 arg6 harg6) K } := by
  refine ⟨?_, ?_, fun E K => ?run⟩
  case run =>
    simp only [cc1__matmul2_kernel_eq_skeleton]; unfold cc1__matmul2_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.Bits.Frame1.lean ====
import proofs.«100021_j83854941487389_1_alg».proof.Proof.Bits.Run1A
import proofs.«100021_j83854941487389_1_alg».proof.Proof.Bits.Run1B
import proofs.«100021_j83854941487389_1_alg».proof.Proof.Bits.Run1C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 1, at a parameter `V`: the core's buffer contents when the region is entered -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data whose
    array is `V`'s and whose body leaves the block in place: the windows are uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the accumulator scratch and in the output block's buffer -/

/-- The reset case's stores cover the scratch. -/
theorem scover1_A (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i) (x0 : Vec F S1024x1024 .f32) (x1 : Vec F S1024x128 .f32) (x2 : Vec F S1024x128 .f32) (y : S1024x128.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1024x128.size (by sl_kernel_rfl) y
/-- What the reset case leaves in the scratch: its stores read back. -/
def sout1_A (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i) (x0 : Vec F S1024x1024 .f32) (x1 : Vec F S1024x128 .f32) (x2 : Vec F S1024x128 .f32) : Vec F S1024x128 .f32 :=
  VS1.read (Elt F) (VS1.writes (Elt F) VS1.junk (kernelRun1_A c i arg2 harg2 arg3 harg3 arg4 harg4 arg5 harg5 arg6 harg6 hc0 hc1 x0 x1 x2).2.1)
/-- The reset case stores nothing into the output block's buffer: a placeholder nothing consults (the window is idle there and not written back). -/
def out1_A (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i) (x0 : Vec F S1024x1024 .f32) (x1 : Vec F S1024x128 .f32) (x2 : Vec F S1024x128 .f32) : Vec F S1024x128 .f32 :=
  VO1_3.read (Elt F) (VO1_3.writes (Elt F) VO1_3.junk (kernelRun1_A c i arg2 harg2 arg3 harg3 arg4 harg4 arg5 harg5 arg6 harg6 hc0 hc1 x0 x1 x2).1)

/-- The middle case's store covers the scratch. -/
theorem scover1_B (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i) (x0 : Vec F S1024x1024 .f32) (x1 : Vec F S1024x128 .f32) (x2 : Vec F S1024x128 .f32) (xs0 : Vec F S1024x128 .f32) (y : S1024x128.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1024x128.size (by sl_kernel_rfl) y
/-- What the middle case leaves in the scratch. -/
def sout1_B (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i) (x0 : Vec F S1024x1024 .f32) (x1 : Vec F S1024x128 .f32) (x2 : Vec F S1024x128 .f32) (xs0 : Vec F S1024x128 .f32) : Vec F S1024x128 .f32 :=
  VS1.read (Elt F) (VS1.writes (Elt F) VS1.junk (kernelRun1_B c i arg2 harg2 arg3 harg3 arg4 harg4 arg5 harg5 arg6 harg6 hc0 hc1 x0 x1 x2 xs0).2.1)
/-- The middle case stores nothing into the output block's buffer either: a placeholder. -/
def out1_B (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i) (x0 : Vec F S1024x1024 .f32) (x1 : Vec F S1024x128 .f32) (x2 : Vec F S1024x128 .f32) (xs0 : Vec F S1024x128 .f32) : Vec F S1024x128 .f32 :=
  VO1_3.read (Elt F) (VO1_3.writes (Elt F) VO1_3.junk (kernelRun1_B c i arg2 harg2 arg3 harg3 arg4 harg4 arg5 harg5 arg6 harg6 hc0 hc1 x0 x1 x2 xs0).1)

/-- The last case's store covers the scratch, -/
theorem scover1_C (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i) (x0 : Vec F S1024x1024 .f32) (x1 : Vec F S1024x128 .f32) (x2 : Vec F S1024x128 .f32) (xs0 : Vec F S1024x128 .f32) (y : S1024x128.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x128.size (by sl_kernel_rfl) y
/-- and its copy covers the output block's buffer. -/
theorem cover1_C (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i) (x0 : Vec F S1024x1024 .f32) (x1 : Vec F S1024x128 .f32) (x2 : Vec F S1024x128 .f32) (xs0 : Vec F S1024x128 .f32) (y : S1024x128.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x128.size (by sl_kernel_rfl) y
/-- What the last case leaves in the scratch, -/
def sout1_C (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i) (x0 : Vec F S1024x1024 .f32) (x1 : Vec F S1024x128 .f32) (x2 : Vec F S1024x128 .f32) (xs0 : Vec F S1024x128 .f32) : Vec F S1024x128 .f32 :=
  VS1.read (Elt F) (VS1.writes (Elt F) VS1.junk (kernelRun1_C c i arg2 harg2 arg3 harg3 arg4 harg4 arg5 harg5 arg6 harg6 hc0 hc1 x0 x1 x2 xs0).2.1)
/-- and in the output block's buffer. -/
def out1_C (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i) (x0 : Vec F S1024x1024 .f32) (x1 : Vec F S1024x128 .f32) (x2 : Vec F S1024x128 .f32) (xs0 : Vec F S1024x128 .f32) : Vec F S1024x128 .f32 :=
  VO1_3.read (Elt F) (VO1_3.writes (Elt F) VO1_3.junk (kernelRun1_C c i arg2 harg2 arg3 harg3 arg4 harg4 arg5 harg5 arg6 harg6 hc0 hc1 x0 x1 x2 xs0).1)

/-! ## What the output block's buffer and the scratch hold after each point -/

/-- The pair (output block's buffer, accumulator scratch) after the body at position `n` of the grid's row-major order: the case the
    reduction coordinate `n % 8` selects, run on the point's input blocks, the scratch — where the case reads it — at what position `n - 1` left. -/
def outsAt1 (c : Dev nD) : (n : ℕ) → n < cfg1.N → Vec F S1024x128 .f32 × Vec F S1024x128 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At a point that resets the accumulator: that case's contents. -/
theorem outsAt1_A (c : Dev nD) (t : Fin cfg1.N) (h0 : t.val % 8 = 0) (h1 : ¬t.val % 8 = 7) :
    outsAt1 V c t.val t.isLt = (out1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a point strictly inside a reduction: that case's contents over what the point before left. -/
theorem outsAt1_B (c : Dev nD) (t : Fin cfg1.N) (h0 : ¬t.val % 8 = 0) (h1 : ¬t.val % 8 = 7) :
    outsAt1 V c t.val t.isLt = (out1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point that ends a reduction: that case's contents over what the point before left. -/
theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point whatever the region hands its body (the scratch at anything);
    afterwards the scratch at what the point before left in it, the other scoped buffers untouched, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ others1 c) ∗ (∃ r, prngReg c r)) := by
  cases n with
  | zero => exact absurd rfl hz
  | succ n => rfl

/-! ## The pipeline's proof data -/

/-- The proof data of pipeline 1 on core `c`: the arrays as the region finds them; after the body at point `t` each input's buffer
    at its block and the output's at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- An input window's buffer is handed back holding its block. -/
theorem leaves1_0 (c : Dev nD) (t : Fin cfg1.N) : (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
theorem leaves1_1 (c : Dev nD) (t : Fin cfg1.N) : (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]
theorem leaves1_2 (c : Dev nD) (t : Fin cfg1.N) : (dat1 V c).leavesExact 2 t = owns (c : Thread nD τ) (ms1_2 t) fullShare (iblk1 V c 2 t) := by
  rw [show (dat1 V c).leavesExact 2 t = owns (c : Thread nD τ) (ms1_2 t) fullShare ((dat1 V c).after 2 t) from by
    unfold Dat.leavesExact; rw [liveAt1_2 t], after1_2]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the reduction coordinate says which case the point is in; the
    invariant hands the body the scratch at what the point before left (at anything at the first point) and takes it back at this
    point's contents, the stores covering it; the output block's buffer is handed back untouched except where a reduction ends; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 64 := lt_of_lt_of_eq t.isLt (show cfg1.N = 64 from N_1)
  by_cases h0 : t.val % 8 = 0
  · by_cases h1 : t.val % 8 = 7
    · exfalso; omega
    · rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        iintro ⟨⟨⟨HS0, Hoth⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hoth⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · have hz : t.val ≠ 0 := fun h => h0 (by rw [h])
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_C c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the region hands its body is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: the scratch's named contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS0, Hoth⟩, Hg⟩
  isplitl [HS0 Hoth]
  · isplitl [HS0]
    · iexists _; iexact HS0
    iexact Hoth
  iexact Hg

end Cert.Kernel.Hand

end
-- ==== Proof.Bits.Launch.lean ====
import proofs.«100021_j83854941487389_1_alg».proof.Proof.Bits.Frame0
import proofs.«100021_j83854941487389_1_alg».proof.Proof.Bits.Frame1
import proofs.«100021_j83854941487389_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: the host operations that compute the diffusion coefficients, then the two matrix products

## The core's buffer contents at each boundary -/

/-- Region 0's entry contents: the launch memory after the host operations (the generated `V1`), read at the TensorCore's references. -/
abbrev E1 : (c : Dev nD) → (b : Ref sig .tc) → Buf (Elt F) ((c : Thread nD τ).loc b) := fun c b => V1 m c b
/-- At region 0's exit: its arrays at what the pipeline leaves (the inputs as entered, the output's write-backs folded), every other buffer as entered. -/
def W2 (c : Dev nD) : Valuation τ sig (Elt F) :=
  Pipeline.withArrays spec0 c (V1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = V1 m c (Proc.devRef .tc b) := by
  unfold W2; exact Pipeline.withArrays_of_ne spec0 c _ _ b hb
/-- Region 1's entry contents. -/
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- At region 1's exit, likewise. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-! ### The arguments end as launched: no host operation writes one, region 0 reads three of them and region 1 one, through input windows -/

/-- The eigenvector matrix is an input window of both regions. -/
theorem W3_main_arg6 (c : Dev nD) : W3 m c (Proc.devRef .tc main_arg6) = m ((c : Thread nD τ).loc main_arg6) :=
  calc W3 m c (Proc.devRef .tc main_arg6)
    _ = W2 m c (Proc.devRef .tc main_arg6) := (W3_arr m c 0).trans (((dat1 (E2 m) c).arrAt_in 0 rfl _).trans (A_eq1 (E2 m) c 0))
    _ = V1 m c (Proc.devRef .tc main_arg6) := (W2_arr m c 0).trans (((dat0 (E1 m) c).arrAt_in 0 rfl _).trans (A_eq0 (E1 m) c 0))
    _ = m ((c : Thread nD τ).loc main_arg6) := V1_of m c main_arg6 (by decide)
/-- The signal is region 0's second input window. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = V1 m c (Proc.devRef .tc main_arg0) := (W2_arr m c 1).trans (((dat0 (E1 m) c).arrAt_in 1 rfl _).trans (A_eq0 (E1 m) c 1))
    _ = m ((c : Thread nD τ).loc main_arg0) := V1_of m c main_arg0 (by decide)
/-- The mass vector is its third. -/
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = V1 m c (Proc.devRef .tc main_arg3) := (W2_arr m c 2).trans (((dat0 (E1 m) c).arrAt_in 2 rfl _).trans (A_eq0 (E1 m) c 2))
    _ = m ((c : Thread nD τ).loc main_arg3) := V1_of m c main_arg3 (by decide)
/-- A buffer that is no array of either region and that no host operation writes ends as launched. -/
theorem W3_untouched (c : Dev nD) (b : Ref sig .tc) (h1 : ∀ w, Pipeline.arrRef spec1 w ≠ b) (h0 : ∀ w, Pipeline.arrRef spec0 w ≠ b)
    (hh : b ∉ hostOps0_W) : W3 m c (Proc.devRef .tc b) = m ((c : Thread nD τ).loc b) :=
  (W3_of_ne m c b h1).trans ((W2_of_ne m c b h0).trans (V1_of m c b hh))

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- The host operations as a segment from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W3 m c) ∗ ∃ r, prngReg c r)

/-! ## The regions as segments -/

-- `iapply` of a library lemma stated over `pin pcs a p` unifies with the pinned configuration only when unification may
-- unfold plain definitions in a metavariable's type
set_option backward.isDefEq.respectTransparency.types false in
/-- Region 0 over the thread state: entered with every unscoped buffer at `V1`, left with them at `W2`. Its arrays are split
    out of the unscoped buffers and put back at their exit contents; the generator register and the scoped rest enter the
    region's invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (E1 m) c)
    unfold Pipeline.ΦA
    iintro ⟨Hp, -, Hr⟩
    isplitl [Hr]; · iexact Hr
    iexact Hp
  hout c := by
    rw [Pipeline.ownSems0_none]
    refine (hout0 (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 1 over the thread state: entered with every unscoped buffer at `W2`, left with them at `W3`. Its arrays are split
    out of the unscoped buffers and put back at their exit contents; the generator register and the scoped rest enter the
    region's invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (E2 m) c)
    unfold Pipeline.ΦA
    iintro ⟨Hp, -, Hr⟩
    isplitl [Hr]; · iexact Hr
    iexact Hp
  hout c := by
    rw [Pipeline.ownSems0_none]
    refine (hout1 (E2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg0 m), .region (reg0 m), .region (reg1 m) ]
theorem main_run (c : Dev nD) : main (F := F) c = Pipeline.Seg.run (segs m) := (main_chain c).trans (by chain_rfl)

set_option backward.isDefEq.respectTransparency.types false in
/-- At the compiled mesh, from any memory with zero counters, every weakly fair execution of @main on the TensorCores terminates, nothing
    faulting, and every final state has every unscoped buffer at the last boundary's contents `W3`. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W3 m c (Proc.devRef .tc b)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c b hb => h c _ (mem_uc b hb))

end Cert.Kernel.Hand

end
-- ==== Proof.Bits.FrameClaim.lean ====
import proofs.«100021_j83854941487389_1_alg».proof.Proof.Bits.Launch

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME, at any float instance: every weakly fair execution of @main terminates, nothing faulting, and the eight argument arrays end
    as launched — each read off the last boundary's contents: the eigenvector matrix, the signal and the mass vector through the input
    windows that stage them, the other five untouched by any region or host operation. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c main_arg0 (by decide)).trans (W3_main_arg0 m c),
      (h c main_arg1 (by decide)).trans (W3_untouched m c main_arg1 (by decide) (by decide) (by decide)),
      (h c main_arg2 (by decide)).trans (W3_untouched m c main_arg2 (by decide) (by decide) (by decide)),
      (h c main_arg3 (by decide)).trans (W3_main_arg3 m c),
      (h c main_arg4 (by decide)).trans (W3_untouched m c main_arg4 (by decide) (by decide) (by decide)),
      (h c main_arg5 (by decide)).trans (W3_untouched m c main_arg5 (by decide) (by decide) (by decide)),
      (h c main_arg6 (by decide)).trans (W3_main_arg6 m c),
      (h c main_arg7 (by decide)).trans (W3_untouched m c main_arg7 (by decide) (by decide) (by decide))⟩)
    (run_all m ρ)

end Cert.Kernel.Hand

end
-- ==== Proof.Ideal.Shared.lean ====
import proofs.«100021_j83854941487389_1_alg».proof.Proof.Gen.KernelIdeal.Launch
import proofs.«100021_j83854941487389_1_alg».proof.Proof.Gen.KernelIdeal.Skeleton
import proofs.«100021_j83854941487389_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Region 0: the body's two branch conditions, where its output window is idle, its memrefs -/

/-- The first branch of kernel 0's body (the accumulator's reset) is taken when the reduction coordinate is 0. -/
abbrev cond0_0 (i : grid0.Coords) : Prop := (Scalar.cmpi .ne (Scalar.extui (Scalar.cmpi .eq (BitVec.ofNat 32 (i 1).val) 0#32)) 0#32) = 1#1
/-- Over the 8 × 8 grid in row-major order that is the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The second branch (the accumulator copied to the output block) is taken when the reduction coordinate is 7. -/
abbrev cond0_1 (i : grid0.Coords) : Prop := k0_cond2 i = 1#1
/-- That is the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-- The three input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the second branch is not taken the output window is idle and its block is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- Where it is taken the window is live. -/
theorem liveAt0_3 : ∀ t : Fin cfg0.N, cond0_1 (grid0.coords t) → cfg0.idle 3 (grid0.coords t) = false := by decide +kernel

/-- A view of the output block's shape through which its contents are stated. -/
abbrev VO0_3 : View sig .tc .vmem S1024x128 .f32 := (Memref.whole cc0_stg3_0 : Memref sig .tc .vmem S1024x128 .f32).view
/-- The accumulator scratch as a memref and as a view. -/
abbrev scM0 : Memref sig .tc .vmem S1024x128 .f32 := Memref.whole cc0_scratch0
abbrev VS0 : View sig .tc .vmem S1024x128 .f32 := (scM0).view

/-- Each window's current staging memref at point `t`, as the pipeline passes it to the body, and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .f32 := win0_3.stage (cfg0.slots t 3)
abbrev hs0_3 (t : Fin cfg0.N) : (ms0_3 t).IsWhole := hstage0_3 ((cfg0.slots t 3).cast nbuf0_3)

/-- The scoped buffers no window of region 0 stages, split at the region's accumulator scratch: that one buffer whole at
    some contents, every other one (the other region's staging buffers and scratch) unopened. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- The other scoped buffers of the core, which region 0's body never touches. -/
abbrev others0 (c : Dev nD) : sProp 𝕄 :=
  Pipeline.scopedRestBut (Ix := Unit) (Name := ℕ) (U := UR sig nD τ) (Lvl := ℕ) (Val := Elt F) spec0 c [cc0_scratch0]

/-- What the region hands its body besides the windows: the accumulator scratch owned at some contents, the other
    scoped buffers, the generator register at some state. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA; rw [scopedRest0_split]; simp only [scM0, owns_whole]; try rfl

/-! ## Region 1: the body's two branch conditions, where its output window is idle, its memrefs -/

/-- The first branch of kernel 1's body (the accumulator's reset) is taken when the reduction coordinate is 0. -/
abbrev cond1_0 (i : grid1.Coords) : Prop := (Scalar.cmpi .ne (Scalar.extui (Scalar.cmpi .eq (BitVec.ofNat 32 (i 1).val) 0#32)) 0#32) = 1#1
/-- Over the 8 × 8 grid in row-major order that is the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The second branch (the accumulator copied to the output block) is taken when the reduction coordinate is 7. -/
abbrev cond1_1 (i : grid1.Coords) : Prop := k1_cond2 i = 1#1
/-- That is the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the second branch is not taken the output window is idle and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- Where it is taken the window is live. -/
theorem liveAt1_3 : ∀ t : Fin cfg1.N, cond1_1 (grid1.coords t) → cfg1.idle 3 (grid1.coords t) = false := by decide +kernel

/-- A view of the output block's shape through which its contents are stated. -/
abbrev VO1_3 : View sig .tc .vmem S1024x128 .f32 := (Memref.whole cc1_stg3_0 : Memref sig .tc .vmem S1024x128 .f32).view
/-- The accumulator scratch as a memref and as a view. -/
abbrev scM1 : Memref sig .tc .vmem S1024x128 .f32 := Memref.whole cc1_scratch0
abbrev VS1 : View sig .tc .vmem S1024x128 .f32 := (scM1).view

/-- Each window's current staging memref at point `t`, as the pipeline passes it to the body, and its wholeness. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)

/-- The scoped buffers no window of region 1 stages, split at the region's accumulator scratch: that one buffer whole at
    some contents, every other one (the other region's staging buffers and scratch) unopened. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The other scoped buffers of the core, which region 1's body never touches. -/
abbrev others1 (c : Dev nD) : sProp 𝕄 :=
  Pipeline.scopedRestBut (Ix := Unit) (Name := ℕ) (U := UR sig nD τ) (Lvl := ℕ) (Val := Elt F) spec1 c [cc1_scratch0]

/-- What the region hands its body besides the windows: the accumulator scratch owned at some contents, the other
    scoped buffers, the generator register at some state. -/
theorem PhiA1_eq (c : Dev nD) :
    (Pipeline.ΦA spec1 c : sProp 𝕄)
      = iprop(iprop((∃ d, owns (c : Thread nD τ) scM1 fullShare d) ∗ others1 c) ∗ (∃ r, prngReg c r)) := by
  unfold Pipeline.ΦA; rw [scopedRest1_split]; simp only [scM1, owns_whole]; try rfl

end Cert.KernelIdeal.Hand

end
-- ==== Proof.Ideal.Run0A.lean ====
import proofs.«100021_j83854941487389_1_alg».proof.Proof.Ideal.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the run's proof term is large
set_option maxHeartbeats 1000000 in
/-- Kernel 0's body at the points where the accumulator is reset (reduction coordinate 0): the scratch may hold anything on entry; the output block's buffer is left as found.
    On whole staging memrefs holding the three input blocks, the body runs to a continuation that holds the inputs as they were and
    each buffer it stored into with its stores written over what it held: the stores, as pieces (last first), are found by running the body. -/
noncomputable def kernelRun0_A (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i)
    (x0 : Vec F S1024x1024 .f32) (x1 : Vec F S1024x128 .f32) (x2 : Vec F S1024 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul1_kernel i arg2 harg2 arg3 harg3 arg4 harg4 arg5 harg5 arg6 harg6) K } := by
  refine ⟨[], ?_, fun xi3 E K => ?run⟩
  case run =>
    simp only [cc0__matmul1_kernel_eq_skeleton]; unfold cc0__matmul1_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.Ideal.Run0B.lean ====
import proofs.«100021_j83854941487389_1_alg».proof.Proof.Ideal.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the run's proof term is large
set_option maxHeartbeats 1000000 in
/-- Kernel 0's body at the points strictly inside a reduction (coordinate 1 to 6): the scratch holds what the point before left; the output block's buffer is left as found.
    On whole staging memrefs holding the three input blocks, the body runs to a continuation that holds the inputs as they were and
    each buffer it stored into with its stores written over what it held: the stores, as pieces (last first), are found by running the body. -/
noncomputable def kernelRun0_B (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : ¬cond0_1 i)
    (x0 : Vec F S1024x1024 .f32) (x1 : Vec F S1024x128 .f32) (x2 : Vec F S1024 .f32) (xs0 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul1_kernel i arg2 harg2 arg3 harg3 arg4 harg4 arg5 harg5 arg6 harg6) K } := by
  refine ⟨[], ?_, fun xi3 E K => ?run⟩
  case run =>
    simp only [cc0__matmul1_kernel_eq_skeleton]; unfold cc0__matmul1_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.Ideal.Run0C.lean ====
import proofs.«100021_j83854941487389_1_alg».proof.Proof.Ideal.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the run's proof term is large
set_option maxHeartbeats 1000000 in
/-- Kernel 0's body at the points that end a reduction (coordinate 7): the scratch holds what the point before left and is copied into the output block's buffer.
    On whole staging memrefs holding the three input blocks, the body runs to a continuation that holds the inputs as they were and
    each buffer it stored into with its stores written over what it held: the stores, as pieces (last first), are found by running the body. -/
noncomputable def kernelRun0_C (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S1024x1024 .f32) (x1 : Vec F S1024x128 .f32) (x2 : Vec F S1024 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul1_kernel i arg2 harg2 arg3 harg3 arg4 harg4 arg5 harg5 arg6 harg6) K } := by
  refine ⟨?_, ?_, fun E K => ?run⟩
  case run =>
    simp only [cc0__matmul1_kernel_eq_skeleton]; unfold cc0__matmul1_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.Ideal.Frame0.lean ====
import proofs.«100021_j83854941487389_1_alg».proof.Proof.Ideal.Run0A
import proofs.«100021_j83854941487389_1_alg».proof.Proof.Ideal.Run0B
import proofs.«100021_j83854941487389_1_alg».proof.Proof.Ideal.Run0C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0, at a parameter `V`: the core's buffer contents when the region is entered -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data whose
    array is `V`'s and whose body leaves the block in place: the windows are uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the accumulator scratch and in the output block's buffer -/

/-- The reset case's stores cover the scratch. -/
theorem scover0_A (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i) (x0 : Vec F S1024x1024 .f32) (x1 : Vec F S1024x128 .f32) (x2 : Vec F S1024 .f32) (y : S1024x128.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1024x128.size (by sl_kernel_rfl) y
/-- What the reset case leaves in the scratch: its stores read back. -/
def sout0_A (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i) (x0 : Vec F S1024x1024 .f32) (x1 : Vec F S1024x128 .f32) (x2 : Vec F S1024 .f32) : Vec F S1024x128 .f32 :=
  VS0.read (Elt F) (VS0.writes (Elt F) VS0.junk (kernelRun0_A c i arg2 harg2 arg3 harg3 arg4 harg4 arg5 harg5 arg6 harg6 hc0 hc1 x0 x1 x2).2.1)
/-- The reset case stores nothing into the output block's buffer: a placeholder nothing consults (the window is idle there and not written back). -/
def out0_A (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i) (x0 : Vec F S1024x1024 .f32) (x1 : Vec F S1024x128 .f32) (x2 : Vec F S1024 .f32) : Vec F S1024x128 .f32 :=
  VO0_3.read (Elt F) (VO0_3.writes (Elt F) VO0_3.junk (kernelRun0_A c i arg2 harg2 arg3 harg3 arg4 harg4 arg5 harg5 arg6 harg6 hc0 hc1 x0 x1 x2).1)

/-- The middle case's store covers the scratch. -/
theorem scover0_B (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : ¬cond0_1 i) (x0 : Vec F S1024x1024 .f32) (x1 : Vec F S1024x128 .f32) (x2 : Vec F S1024 .f32) (xs0 : Vec F S1024x128 .f32) (y : S1024x128.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S1024x128.size (by sl_kernel_rfl) y
/-- What the middle case leaves in the scratch. -/
def sout0_B (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : ¬cond0_1 i) (x0 : Vec F S1024x1024 .f32) (x1 : Vec F S1024x128 .f32) (x2 : Vec F S1024 .f32) (xs0 : Vec F S1024x128 .f32) : Vec F S1024x128 .f32 :=
  VS0.read (Elt F) (VS0.writes (Elt F) VS0.junk (kernelRun0_B c i arg2 harg2 arg3 harg3 arg4 harg4 arg5 harg5 arg6 harg6 hc0 hc1 x0 x1 x2 xs0).2.1)
/-- The middle case stores nothing into the output block's buffer either: a placeholder. -/
def out0_B (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : ¬cond0_1 i) (x0 : Vec F S1024x1024 .f32) (x1 : Vec F S1024x128 .f32) (x2 : Vec F S1024 .f32) (xs0 : Vec F S1024x128 .f32) : Vec F S1024x128 .f32 :=
  VO0_3.read (Elt F) (VO0_3.writes (Elt F) VO0_3.junk (kernelRun0_B c i arg2 harg2 arg3 harg3 arg4 harg4 arg5 harg5 arg6 harg6 hc0 hc1 x0 x1 x2 xs0).1)

/-- The last case's store covers the scratch, -/
theorem scover0_C (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i) (x0 : Vec F S1024x1024 .f32) (x1 : Vec F S1024x128 .f32) (x2 : Vec F S1024 .f32) (xs0 : Vec F S1024x128 .f32) (y : S1024x128.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1024x128.size (by sl_kernel_rfl) y
/-- and its copy covers the output block's buffer. -/
theorem cover0_C (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i) (x0 : Vec F S1024x1024 .f32) (x1 : Vec F S1024x128 .f32) (x2 : Vec F S1024 .f32) (xs0 : Vec F S1024x128 .f32) (y : S1024x128.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1024x128.size (by sl_kernel_rfl) y
/-- What the last case leaves in the scratch, -/
def sout0_C (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i) (x0 : Vec F S1024x1024 .f32) (x1 : Vec F S1024x128 .f32) (x2 : Vec F S1024 .f32) (xs0 : Vec F S1024x128 .f32) : Vec F S1024x128 .f32 :=
  VS0.read (Elt F) (VS0.writes (Elt F) VS0.junk (kernelRun0_C c i arg2 harg2 arg3 harg3 arg4 harg4 arg5 harg5 arg6 harg6 hc0 hc1 x0 x1 x2 xs0).2.1)
/-- and in the output block's buffer. -/
def out0_C (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i) (x0 : Vec F S1024x1024 .f32) (x1 : Vec F S1024x128 .f32) (x2 : Vec F S1024 .f32) (xs0 : Vec F S1024x128 .f32) : Vec F S1024x128 .f32 :=
  VO0_3.read (Elt F) (VO0_3.writes (Elt F) VO0_3.junk (kernelRun0_C c i arg2 harg2 arg3 harg3 arg4 harg4 arg5 harg5 arg6 harg6 hc0 hc1 x0 x1 x2 xs0).1)

/-! ## What the output block's buffer and the scratch hold after each point -/

/-- The pair (output block's buffer, accumulator scratch) after the body at position `n` of the grid's row-major order: the case the
    reduction coordinate `n % 8` selects, run on the point's input blocks, the scratch — where the case reads it — at what position `n - 1` left. -/
def outsAt0 (c : Dev nD) : (n : ℕ) → n < cfg0.N → Vec F S1024x128 .f32 × Vec F S1024x128 .f32
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 8 = 0 then
      if h1 : (n + 1) % 8 = 7 then
        False.elim (by omega)
      else
        (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 8 = 7 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- At a point that resets the accumulator: that case's contents. -/
theorem outsAt0_A (c : Dev nD) (t : Fin cfg0.N) (h0 : t.val % 8 = 0) (h1 : ¬t.val % 8 = 7) :
    outsAt0 V c t.val t.isLt = (out0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t), sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- At a point strictly inside a reduction: that case's contents over what the point before left. -/
theorem outsAt0_B (c : Dev nD) (t : Fin cfg0.N) (h0 : ¬t.val % 8 = 0) (h1 : ¬t.val % 8 = 7) :
    outsAt0 V c t.val t.isLt = (out0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point that ends a reduction: that case's contents over what the point before left. -/
theorem outsAt0_C (c : Dev nD) (t : Fin cfg0.N) (h0 : ¬t.val % 8 = 0) (h1 : t.val % 8 = 7) :
    outsAt0 V c t.val t.isLt = (out0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point whatever the region hands its body (the scratch at anything);
    afterwards the scratch at what the point before left in it, the other scoped buffers untouched, the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ others0 c) ∗ (∃ r, prngReg c r)) := by
  cases n with
  | zero => exact absurd rfl hz
  | succ n => rfl

/-! ## The pipeline's proof data -/

/-- The proof data of pipeline 0 on core `c`: the arrays as the region finds them; after the body at point `t` each input's buffer
    at its block and the output's at `outsAt0`'s first component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- An input window's buffer is handed back holding its block. -/
theorem leaves0_0 (c : Dev nD) (t : Fin cfg0.N) : (dat0 V c).leavesExact 0 t = owns (c : Thread nD τ) (ms0_0 t) fullShare (iblk0 V c 0 t) := by
  rw [show (dat0 V c).leavesExact 0 t = owns (c : Thread nD τ) (ms0_0 t) fullShare ((dat0 V c).after 0 t) from by
    unfold Dat.leavesExact; rw [liveAt0_0 t], after0_0]
theorem leaves0_1 (c : Dev nD) (t : Fin cfg0.N) : (dat0 V c).leavesExact 1 t = owns (c : Thread nD τ) (ms0_1 t) fullShare (iblk0 V c 1 t) := by
  rw [show (dat0 V c).leavesExact 1 t = owns (c : Thread nD τ) (ms0_1 t) fullShare ((dat0 V c).after 1 t) from by
    unfold Dat.leavesExact; rw [liveAt0_1 t], after0_1]
theorem leaves0_2 (c : Dev nD) (t : Fin cfg0.N) : (dat0 V c).leavesExact 2 t = owns (c : Thread nD τ) (ms0_2 t) fullShare (iblk0 V c 2 t) := by
  rw [show (dat0 V c).leavesExact 2 t = owns (c : Thread nD τ) (ms0_2 t) fullShare ((dat0 V c).after 2 t) from by
    unfold Dat.leavesExact; rw [liveAt0_2 t], after0_2]

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the reduction coordinate says which case the point is in; the
    invariant hands the body the scratch at what the point before left (at anything at the first point) and takes it back at this
    point's contents, the stores covering it; the output block's buffer is handed back untouched except where a reduction ends; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 64 := lt_of_lt_of_eq t.isLt (show cfg0.N = 64 from N_0)
  by_cases h0 : t.val % 8 = 0
  · by_cases h1 : t.val % 8 = 7
    · exfalso; omega
    · rw [Dat.leavesExact_idle (dat0 V c) 3 t (idleAt0_3 t (fun h => h1 ((hcond0_1 t).mp h))) (noFlush0_3 t (fun h => h1 ((hcond0_1 t).mp h)))]
      rw [outsAt0_A V c t h0 h1]
      unfold sout0_A; (try dsimp only)
      by_cases hz : t.val = 0
      · rw [PhiS0_castSucc V c t, PhiS0_zero V c _ _ hz, PhiA0_eq]
        iintro ⟨⟨⟨HS0, Hoth⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · have hz : t.val ≠ 0 := fun h => h0 (by rw [h])
    by_cases h1 : t.val % 8 = 7
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C sout0_C; (try dsimp only)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B; (try dsimp only)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the region hands its body is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives it back: the scratch's named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

end Cert.KernelIdeal.Hand

end
-- ==== Proof.Ideal.Run1A.lean ====
import proofs.«100021_j83854941487389_1_alg».proof.Proof.Ideal.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the run's proof term is large
set_option maxHeartbeats 1000000 in
/-- Kernel 1's body at the points where the accumulator is reset (reduction coordinate 0): the scratch may hold anything on entry; the output block's buffer is left as found.
    On whole staging memrefs holding the three input blocks, the body runs to a continuation that holds the inputs as they were and
    each buffer it stored into with its stores written over what it held: the stores, as pieces (last first), are found by running the body. -/
noncomputable def kernelRun1_A (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i)
    (x0 : Vec F S1024x1024 .f32) (x1 : Vec F S1024x128 .f32) (x2 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul2_kernel i arg2 harg2 arg3 harg3 arg4 harg4 arg5 harg5 arg6 harg6) K } := by
  refine ⟨[], ?_, fun xi3 E K => ?run⟩
  case run =>
    simp only [cc1__matmul2_kernel_eq_skeleton]; unfold cc1__matmul2_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.Ideal.Run1B.lean ====
import proofs.«100021_j83854941487389_1_alg».proof.Proof.Ideal.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the run's proof term is large
set_option maxHeartbeats 1000000 in
/-- Kernel 1's body at the points strictly inside a reduction (coordinate 1 to 6): the scratch holds what the point before left; the output block's buffer is left as found.
    On whole staging memrefs holding the three input blocks, the body runs to a continuation that holds the inputs as they were and
    each buffer it stored into with its stores written over what it held: the stores, as pieces (last first), are found by running the body. -/
noncomputable def kernelRun1_B (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i)
    (x0 : Vec F S1024x1024 .f32) (x1 : Vec F S1024x128 .f32) (x2 : Vec F S1024x128 .f32) (xs0 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul2_kernel i arg2 harg2 arg3 harg3 arg4 harg4 arg5 harg5 arg6 harg6) K } := by
  refine ⟨[], ?_, fun xi3 E K => ?run⟩
  case run =>
    simp only [cc1__matmul2_kernel_eq_skeleton]; unfold cc1__matmul2_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.Ideal.Run1C.lean ====
import proofs.«100021_j83854941487389_1_alg».proof.Proof.Ideal.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the run's proof term is large
set_option maxHeartbeats 1000000 in
/-- Kernel 1's body at the points that end a reduction (coordinate 7): the scratch holds what the point before left and is copied into the output block's buffer.
    On whole staging memrefs holding the three input blocks, the body runs to a continuation that holds the inputs as they were and
    each buffer it stored into with its stores written over what it held: the stores, as pieces (last first), are found by running the body. -/
noncomputable def kernelRun1_C (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1024x1024 .f32) (x1 : Vec F S1024x128 .f32) (x2 : Vec F S1024x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__matmul2_kernel i arg2 harg2 arg3 harg3 arg4 harg4 arg5 harg5 arg6 harg6) K } := by
  refine ⟨?_, ?_, fun E K => ?run⟩
  case run =>
    simp only [cc1__matmul2_kernel_eq_skeleton]; unfold cc1__matmul2_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.Ideal.Frame1.lean ====
import proofs.«100021_j83854941487389_1_alg».proof.Proof.Ideal.Run1A
import proofs.«100021_j83854941487389_1_alg».proof.Proof.Ideal.Run1B
import proofs.«100021_j83854941487389_1_alg».proof.Proof.Ideal.Run1C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1, at a parameter `V`: the core's buffer contents when the region is entered -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data whose
    array is `V`'s and whose body leaves the block in place: the windows are uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the accumulator scratch and in the output block's buffer -/

/-- The reset case's stores cover the scratch. -/
theorem scover1_A (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i) (x0 : Vec F S1024x1024 .f32) (x1 : Vec F S1024x128 .f32) (x2 : Vec F S1024x128 .f32) (y : S1024x128.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1024x128.size (by sl_kernel_rfl) y
/-- What the reset case leaves in the scratch: its stores read back. -/
def sout1_A (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i) (x0 : Vec F S1024x1024 .f32) (x1 : Vec F S1024x128 .f32) (x2 : Vec F S1024x128 .f32) : Vec F S1024x128 .f32 :=
  VS1.read (Elt F) (VS1.writes (Elt F) VS1.junk (kernelRun1_A c i arg2 harg2 arg3 harg3 arg4 harg4 arg5 harg5 arg6 harg6 hc0 hc1 x0 x1 x2).2.1)
/-- The reset case stores nothing into the output block's buffer: a placeholder nothing consults (the window is idle there and not written back). -/
def out1_A (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i) (x0 : Vec F S1024x1024 .f32) (x1 : Vec F S1024x128 .f32) (x2 : Vec F S1024x128 .f32) : Vec F S1024x128 .f32 :=
  VO1_3.read (Elt F) (VO1_3.writes (Elt F) VO1_3.junk (kernelRun1_A c i arg2 harg2 arg3 harg3 arg4 harg4 arg5 harg5 arg6 harg6 hc0 hc1 x0 x1 x2).1)

/-- The middle case's store covers the scratch. -/
theorem scover1_B (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i) (x0 : Vec F S1024x1024 .f32) (x1 : Vec F S1024x128 .f32) (x2 : Vec F S1024x128 .f32) (xs0 : Vec F S1024x128 .f32) (y : S1024x128.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1024x128.size (by sl_kernel_rfl) y
/-- What the middle case leaves in the scratch. -/
def sout1_B (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i) (x0 : Vec F S1024x1024 .f32) (x1 : Vec F S1024x128 .f32) (x2 : Vec F S1024x128 .f32) (xs0 : Vec F S1024x128 .f32) : Vec F S1024x128 .f32 :=
  VS1.read (Elt F) (VS1.writes (Elt F) VS1.junk (kernelRun1_B c i arg2 harg2 arg3 harg3 arg4 harg4 arg5 harg5 arg6 harg6 hc0 hc1 x0 x1 x2 xs0).2.1)
/-- The middle case stores nothing into the output block's buffer either: a placeholder. -/
def out1_B (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i) (x0 : Vec F S1024x1024 .f32) (x1 : Vec F S1024x128 .f32) (x2 : Vec F S1024x128 .f32) (xs0 : Vec F S1024x128 .f32) : Vec F S1024x128 .f32 :=
  VO1_3.read (Elt F) (VO1_3.writes (Elt F) VO1_3.junk (kernelRun1_B c i arg2 harg2 arg3 harg3 arg4 harg4 arg5 harg5 arg6 harg6 hc0 hc1 x0 x1 x2 xs0).1)

/-- The last case's store covers the scratch, -/
theorem scover1_C (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i) (x0 : Vec F S1024x1024 .f32) (x1 : Vec F S1024x128 .f32) (x2 : Vec F S1024x128 .f32) (xs0 : Vec F S1024x128 .f32) (y : S1024x128.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x128.size (by sl_kernel_rfl) y
/-- and its copy covers the output block's buffer. -/
theorem cover1_C (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i) (x0 : Vec F S1024x1024 .f32) (x1 : Vec F S1024x128 .f32) (x2 : Vec F S1024x128 .f32) (xs0 : Vec F S1024x128 .f32) (y : S1024x128.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x128.size (by sl_kernel_rfl) y
/-- What the last case leaves in the scratch, -/
def sout1_C (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i) (x0 : Vec F S1024x1024 .f32) (x1 : Vec F S1024x128 .f32) (x2 : Vec F S1024x128 .f32) (xs0 : Vec F S1024x128 .f32) : Vec F S1024x128 .f32 :=
  VS1.read (Elt F) (VS1.writes (Elt F) VS1.junk (kernelRun1_C c i arg2 harg2 arg3 harg3 arg4 harg4 arg5 harg5 arg6 harg6 hc0 hc1 x0 x1 x2 xs0).2.1)
/-- and in the output block's buffer. -/
def out1_C (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i) (x0 : Vec F S1024x1024 .f32) (x1 : Vec F S1024x128 .f32) (x2 : Vec F S1024x128 .f32) (xs0 : Vec F S1024x128 .f32) : Vec F S1024x128 .f32 :=
  VO1_3.read (Elt F) (VO1_3.writes (Elt F) VO1_3.junk (kernelRun1_C c i arg2 harg2 arg3 harg3 arg4 harg4 arg5 harg5 arg6 harg6 hc0 hc1 x0 x1 x2 xs0).1)

/-! ## What the output block's buffer and the scratch hold after each point -/

/-- The pair (output block's buffer, accumulator scratch) after the body at position `n` of the grid's row-major order: the case the
    reduction coordinate `n % 8` selects, run on the point's input blocks, the scratch — where the case reads it — at what position `n - 1` left. -/
def outsAt1 (c : Dev nD) : (n : ℕ) → n < cfg1.N → Vec F S1024x128 .f32 × Vec F S1024x128 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At a point that resets the accumulator: that case's contents. -/
theorem outsAt1_A (c : Dev nD) (t : Fin cfg1.N) (h0 : t.val % 8 = 0) (h1 : ¬t.val % 8 = 7) :
    outsAt1 V c t.val t.isLt = (out1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a point strictly inside a reduction: that case's contents over what the point before left. -/
theorem outsAt1_B (c : Dev nD) (t : Fin cfg1.N) (h0 : ¬t.val % 8 = 0) (h1 : ¬t.val % 8 = 7) :
    outsAt1 V c t.val t.isLt = (out1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point that ends a reduction: that case's contents over what the point before left. -/
theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point whatever the region hands its body (the scratch at anything);
    afterwards the scratch at what the point before left in it, the other scoped buffers untouched, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ others1 c) ∗ (∃ r, prngReg c r)) := by
  cases n with
  | zero => exact absurd rfl hz
  | succ n => rfl

/-! ## The pipeline's proof data -/

/-- The proof data of pipeline 1 on core `c`: the arrays as the region finds them; after the body at point `t` each input's buffer
    at its block and the output's at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- An input window's buffer is handed back holding its block. -/
theorem leaves1_0 (c : Dev nD) (t : Fin cfg1.N) : (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
theorem leaves1_1 (c : Dev nD) (t : Fin cfg1.N) : (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]
theorem leaves1_2 (c : Dev nD) (t : Fin cfg1.N) : (dat1 V c).leavesExact 2 t = owns (c : Thread nD τ) (ms1_2 t) fullShare (iblk1 V c 2 t) := by
  rw [show (dat1 V c).leavesExact 2 t = owns (c : Thread nD τ) (ms1_2 t) fullShare ((dat1 V c).after 2 t) from by
    unfold Dat.leavesExact; rw [liveAt1_2 t], after1_2]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the reduction coordinate says which case the point is in; the
    invariant hands the body the scratch at what the point before left (at anything at the first point) and takes it back at this
    point's contents, the stores covering it; the output block's buffer is handed back untouched except where a reduction ends; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 64 := lt_of_lt_of_eq t.isLt (show cfg1.N = 64 from N_1)
  by_cases h0 : t.val % 8 = 0
  · by_cases h1 : t.val % 8 = 7
    · exfalso; omega
    · rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        iintro ⟨⟨⟨HS0, Hoth⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hoth⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · have hz : t.val ≠ 0 := fun h => h0 (by rw [h])
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_C c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the region hands its body is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: the scratch's named contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS0, Hoth⟩, Hg⟩
  isplitl [HS0 Hoth]
  · isplitl [HS0]
    · iexists _; iexact HS0
    iexact Hoth
  iexact Hg

end Cert.KernelIdeal.Hand

end
-- ==== Proof.Ideal.Launch.lean ====
import proofs.«100021_j83854941487389_1_alg».proof.Proof.Ideal.Frame0
import proofs.«100021_j83854941487389_1_alg».proof.Proof.Ideal.Frame1
import proofs.«100021_j83854941487389_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: the host operations that compute the diffusion coefficients, then the two matrix products

## The core's buffer contents at each boundary -/

/-- Region 0's entry contents: the launch memory after the host operations (the generated `V1`), read at the TensorCore's references. -/
abbrev E1 : (c : Dev nD) → (b : Ref sig .tc) → Buf (Elt F) ((c : Thread nD τ).loc b) := fun c b => V1 m c b
/-- At region 0's exit: its arrays at what the pipeline leaves (the inputs as entered, the output's write-backs folded), every other buffer as entered. -/
def W2 (c : Dev nD) : Valuation τ sig (Elt F) :=
  Pipeline.withArrays spec0 c (V1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = V1 m c (Proc.devRef .tc b) := by
  unfold W2; exact Pipeline.withArrays_of_ne spec0 c _ _ b hb
/-- Region 1's entry contents. -/
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- At region 1's exit, likewise. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-! ### The arguments end as launched: no host operation writes one, region 0 reads three of them and region 1 one, through input windows -/

/-- The eigenvector matrix is an input window of both regions. -/
theorem W3_main_arg6 (c : Dev nD) : W3 m c (Proc.devRef .tc main_arg6) = m ((c : Thread nD τ).loc main_arg6) :=
  calc W3 m c (Proc.devRef .tc main_arg6)
    _ = W2 m c (Proc.devRef .tc main_arg6) := (W3_arr m c 0).trans (((dat1 (E2 m) c).arrAt_in 0 rfl _).trans (A_eq1 (E2 m) c 0))
    _ = V1 m c (Proc.devRef .tc main_arg6) := (W2_arr m c 0).trans (((dat0 (E1 m) c).arrAt_in 0 rfl _).trans (A_eq0 (E1 m) c 0))
    _ = m ((c : Thread nD τ).loc main_arg6) := V1_of m c main_arg6 (by decide)
/-- The signal is region 0's second input window. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = V1 m c (Proc.devRef .tc main_arg0) := (W2_arr m c 1).trans (((dat0 (E1 m) c).arrAt_in 1 rfl _).trans (A_eq0 (E1 m) c 1))
    _ = m ((c : Thread nD τ).loc main_arg0) := V1_of m c main_arg0 (by decide)
/-- The mass vector is its third. -/
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = V1 m c (Proc.devRef .tc main_arg3) := (W2_arr m c 2).trans (((dat0 (E1 m) c).arrAt_in 2 rfl _).trans (A_eq0 (E1 m) c 2))
    _ = m ((c : Thread nD τ).loc main_arg3) := V1_of m c main_arg3 (by decide)
/-- A buffer that is no array of either region and that no host operation writes ends as launched. -/
theorem W3_untouched (c : Dev nD) (b : Ref sig .tc) (h1 : ∀ w, Pipeline.arrRef spec1 w ≠ b) (h0 : ∀ w, Pipeline.arrRef spec0 w ≠ b)
    (hh : b ∉ hostOps0_W) : W3 m c (Proc.devRef .tc b) = m ((c : Thread nD τ).loc b) :=
  (W3_of_ne m c b h1).trans ((W2_of_ne m c b h0).trans (V1_of m c b hh))

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- The host operations as a segment from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W3 m c) ∗ ∃ r, prngReg c r)

/-! ## The regions as segments -/

-- `iapply` of a library lemma stated over `pin pcs a p` unifies with the pinned configuration only when unification may
-- unfold plain definitions in a metavariable's type
set_option backward.isDefEq.respectTransparency.types false in
/-- Region 0 over the thread state: entered with every unscoped buffer at `V1`, left with them at `W2`. Its arrays are split
    out of the unscoped buffers and put back at their exit contents; the generator register and the scoped rest enter the
    region's invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (E1 m) c)
    unfold Pipeline.ΦA
    iintro ⟨Hp, -, Hr⟩
    isplitl [Hr]; · iexact Hr
    iexact Hp
  hout c := by
    rw [Pipeline.ownSems0_none]
    refine (hout0 (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 1 over the thread state: entered with every unscoped buffer at `W2`, left with them at `W3`. Its arrays are split
    out of the unscoped buffers and put back at their exit contents; the generator register and the scoped rest enter the
    region's invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (E2 m) c)
    unfold Pipeline.ΦA
    iintro ⟨Hp, -, Hr⟩
    isplitl [Hr]; · iexact Hr
    iexact Hp
  hout c := by
    rw [Pipeline.ownSems0_none]
    refine (hout1 (E2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg0 m), .region (reg0 m), .region (reg1 m) ]
theorem main_run (c : Dev nD) : main (F := F) c = Pipeline.Seg.run (segs m) := (main_chain c).trans (by chain_rfl)

set_option backward.isDefEq.respectTransparency.types false in
/-- At the compiled mesh, from any memory with zero counters, every weakly fair execution of @main on the TensorCores terminates, nothing
    faulting, and every final state has every unscoped buffer at the last boundary's contents `W3`. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W3 m c (Proc.devRef .tc b)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c b hb => h c _ (mem_uc b hb))

end Cert.KernelIdeal.Hand

end
-- ==== Proof.Ideal.FrameClaim.lean ====
import proofs.«100021_j83854941487389_1_alg».proof.Proof.Ideal.Launch

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME, at any float instance: every weakly fair execution of @main terminates, nothing faulting, and the eight argument arrays end
    as launched — each read off the last boundary's contents: the eigenvector matrix, the signal and the mass vector through the input
    windows that stage them, the other five untouched by any region or host operation. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c main_arg0 (by decide)).trans (W3_main_arg0 m c),
      (h c main_arg1 (by decide)).trans (W3_untouched m c main_arg1 (by decide) (by decide) (by decide)),
      (h c main_arg2 (by decide)).trans (W3_untouched m c main_arg2 (by decide) (by decide) (by decide)),
      (h c main_arg3 (by decide)).trans (W3_main_arg3 m c),
      (h c main_arg4 (by decide)).trans (W3_untouched m c main_arg4 (by decide) (by decide) (by decide)),
      (h c main_arg5 (by decide)).trans (W3_untouched m c main_arg5 (by decide) (by decide) (by decide)),
      (h c main_arg6 (by decide)).trans (W3_main_arg6 m c),
      (h c main_arg7 (by decide)).trans (W3_untouched m c main_arg7 (by decide) (by decide) (by decide))⟩)
    (run_all m ρ)

end Cert.KernelIdeal.Hand

end
-- ==== Proof.Ideal.Zero.lean ====
import Mathlib.Data.Fin.VecNotation

/-! The zero offsets of a whole-buffer access, as constant functions. -/

namespace Cert.KernelIdeal.Hand

theorem hz1 : (![0] : Fin 1 → Nat) = fun _ => 0 := funext fun a => match a with | ⟨0, _⟩ => rfl
theorem hz2 : (![0, 0] : Fin 2 → Nat) = fun _ => 0 := funext fun a => match a with | ⟨0, _⟩ => rfl | ⟨1, _⟩ => rfl

end Cert.KernelIdeal.Hand
-- ==== Proof.Ideal.Pieces0.lean ====
import proofs.«100021_j83854941487389_1_alg».proof.Proof.Ideal.Frame0
import Idealize.ShloMosaic.Lib.Pipeline.Value
import proofs.«100021_j83854941487389_1_alg».proof.Proof.Ideal.Zero

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0: what each case's stores leave, as values

The accumulator scratch after a point is the body's one arithmetic payload, `k0_pay2`, of the point's three input blocks and of what the
scratch held: the zero block (`k0_pay1`) where the reduction starts, what the point before left elsewhere. Where a reduction ends the
output block's buffer receives the same value. -/

/-- Where the reduction starts: the zero block is stored, read back, and the first product added to it. -/
theorem sout0_A_eq (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i) (x0 : Vec F S1024x1024 .f32) (x1 : Vec F S1024x128 .f32) (x2 : Vec F S1024 .f32) :
    sout0_A c i arg2 harg2 arg3 harg3 arg4 harg4 arg5 harg5 arg6 harg6 hc0 hc1 x0 x1 x2 = k0_pay2 x1 x2 x0 (k0_pay1 (F := F)) := by
  unfold sout0_A
  rw [View.read_writes_eq_canon _ _ _ (scover0_A c i arg2 harg2 arg3 harg3 arg4 harg4 arg5 harg5 arg6 harg6 hc0 hc1 x0 x1 x2)]
  unfold kernelRun0_A
  dsimp only
  sl_unfold_words
  rw [View.canon_cons_unit_zero (S := S1024x128) hz2]
  simp only [View.readAt_eq_ld, harg2.read_unread, harg3.read_unread, harg4.read_unread, harg6.read_unread, View.readCov_unit_zero (S := S1024x128) _ hz2, View.ld_unit_zero (S := S1024x128) hz2, View.ld_unit_zero (S := S1024x1024) hz2, View.ld_unit_zero (S := S1024) hz1]

/-- Inside a reduction: the point's product is added to what the scratch held. -/
theorem sout0_B_eq (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : ¬cond0_1 i) (x0 : Vec F S1024x1024 .f32) (x1 : Vec F S1024x128 .f32) (x2 : Vec F S1024 .f32) (xs0 : Vec F S1024x128 .f32) :
    sout0_B c i arg2 harg2 arg3 harg3 arg4 harg4 arg5 harg5 arg6 harg6 hc0 hc1 x0 x1 x2 xs0 = k0_pay2 x1 x2 x0 xs0 := by
  unfold sout0_B
  rw [View.read_writes_eq_canon _ _ _ (scover0_B c i arg2 harg2 arg3 harg3 arg4 harg4 arg5 harg5 arg6 harg6 hc0 hc1 x0 x1 x2 xs0)]
  unfold kernelRun0_B
  dsimp only
  sl_unfold_words
  rw [View.canon_unit_zero hz2]
  simp only [View.readAt_eq_ld, harg2.read_unread, harg3.read_unread, harg4.read_unread, harg6.read_unread, View.readCov_unit_zero (S := S1024x128) _ hz2, View.ld_unit_zero (S := S1024x128) hz2, View.ld_unit_zero (S := S1024x1024) hz2, View.ld_unit_zero (S := S1024) hz1]

/-- Where the reduction ends: the same in the scratch, -/
theorem sout0_C_eq (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i) (x0 : Vec F S1024x1024 .f32) (x1 : Vec F S1024x128 .f32) (x2 : Vec F S1024 .f32) (xs0 : Vec F S1024x128 .f32) :
    sout0_C c i arg2 harg2 arg3 harg3 arg4 harg4 arg5 harg5 arg6 harg6 hc0 hc1 x0 x1 x2 xs0 = k0_pay2 x1 x2 x0 xs0 := by
  unfold sout0_C
  rw [View.read_writes_eq_canon _ _ _ (scover0_C c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg4.read_unread, harg6.read_unread, View.readCov_unit_zero (S := S1024x128) _ hz2, View.ld_unit_zero (S := S1024x128) hz2, View.ld_unit_zero (S := S1024x1024) hz2, View.ld_unit_zero (S := S1024) hz1]

/-- and the output block's buffer holds a copy of it. -/
theorem out0_C_eq (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i) (x0 : Vec F S1024x1024 .f32) (x1 : Vec F S1024x128 .f32) (x2 : Vec F S1024 .f32) (xs0 : Vec F S1024x128 .f32) :
    out0_C c i arg2 harg2 arg3 harg3 arg4 harg4 arg5 harg5 arg6 harg6 hc0 hc1 x0 x1 x2 xs0 = k0_pay2 x1 x2 x0 xs0 := by
  unfold out0_C
  rw [View.read_writes_eq_canon _ _ _ (cover0_C c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg4.read_unread, harg6.read_unread, View.readCov_unit_zero (S := S1024x128) _ hz2, View.ld_unit_zero (S := S1024x128) hz2, View.ld_unit_zero (S := S1024x1024) hz2, View.ld_unit_zero (S := S1024) hz1]

end Cert.KernelIdeal.Hand

end
-- ==== Proof.LibColumn.lean ====
/-
  A vector of length `a` laid out as a column `[a, 1]`, read at an index.

  Two host operations produce the same column from a vector `x`: a reshape `[a] → [a, 1]` (row-major position
  `i * 1 + 0 = i`) and a `broadcast_in_dim` along axis `0` into `[a, 1]` (the new axis has extent one, so nothing is
  repeated). Both read `x i` at `(i, u)`, whatever the unit coordinate `u`; hence the two columns are equal as arrays.
  A column broadcast along its unit axis to `[a, b]` (the kernel-side `vector.broadcast`, the host's
  `broadcast_in_dim` along both axes) reads the column at `(i, 0)`.
-/
import Idealize.ShloMosaic.Lib.ValueIdx
import Idealize.ShloMosaic.Lib.Pipeline.Value

namespace Idealize.ShloMosaic.Column

open Idealize.ShloMosaic Idealize.ShloMosaic.ValueIdx

variable {α : Type}

/-- The reshape `[a] → [a, 1]` at `(i, u)` is the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The `broadcast_in_dim` of a vector along axis `0` into `[a, 1]`, at `(i, u)`, is the vector at `i`
    (for `a ≠ 1`; the extent-one case reads index `0`, which is again `i`). -/
theorem broadcastInDim_a_a1_apply {a : ℕ} (x : (⟨1, ![a]⟩ : Shape).Idx → α)
    (dims : Fin 1 → Fin 2) (hd : dims 0 = 0)
    (h : (⟨1, ![a]⟩ : Shape).BroadcastsInDim ⟨2, ![a, 1]⟩ dims)
    (i : Fin a) (u : Fin 1) : broadcastInDim ⟨2, ![a, 1]⟩ dims h x (ix2 i u) = x (ix1 i) := by
  refine broadcastInDim_apply dims h x (ix2 i u) (ix1 i) ?_
  intro d
  match d with
  | ⟨0, _⟩ =>
    show i.val = if a = 1 then 0 else ((ix2 i u : (⟨2, ![a, 1]⟩ : Shape).Idx) (dims 0)).val
    rw [hd]
    by_cases h1 : a = 1
    · rw [if_pos h1]; have := i.isLt; omega
    · rw [if_neg h1]

/-- So the two columns are one array. -/
theorem shapeCast_eq_broadcastInDim {a : ℕ} (x : (⟨1, ![a]⟩ : Shape).Idx → α)
    (hs : (⟨1, ![a]⟩ : Shape).ShapeCasts ⟨2, ![a, 1]⟩)
    (dims : Fin 1 → Fin 2) (hd : dims 0 = 0)
    (hb : (⟨1, ![a]⟩ : Shape).BroadcastsInDim ⟨2, ![a, 1]⟩ dims) :
    shapeCast ⟨2, ![a, 1]⟩ x hs = broadcastInDim ⟨2, ![a, 1]⟩ dims hb x := by
  funext j
  obtain ⟨p, q, rfl⟩ : ∃ (p : Fin a) (q : Fin 1), j = ix2 p q := ⟨j 0, j 1, eq_ix2 j⟩
  rw [shapeCast_a_a1_apply, broadcastInDim_a_a1_apply x dims hd]

/-- A column `[a, 1]` broadcast to `[a, b]` (a kernel's `vector.broadcast`) reads, at `(i, j)`, the column at `(i, 0)`
    (for `a ≠ 1`). -/
theorem broadcastTo_a1_ab_apply {a b : ℕ} (ha : a ≠ 1) (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) := by
  refine broadcastTo_apply x h (ix2 i j) (ix2 i (0 : Fin 1)) ?_
  intro d
  match d with
  | ⟨0, _⟩ => show i.val = if a = 1 then 0 else i.val; rw [if_neg ha]
  | ⟨1, _⟩ => show 0 = if (1 : ℕ) = 1 then 0 else j.val; rw [if_pos rfl]

/-- The host's `broadcast_in_dim` of a column `[a, 1]` along both axes into `[a, b]` reads the same (for `a ≠ 1`). -/
theorem broadcastInDim_a1_ab_apply {a b : ℕ} (ha : a ≠ 1) (x : (⟨2, ![a, 1]⟩ : Shape).Idx → α)
    (dims : Fin 2 → Fin 2) (hd0 : dims 0 = 0) (hd1 : dims 1 = 1)
    (h : (⟨2, ![a, 1]⟩ : Shape).BroadcastsInDim ⟨2, ![a, b]⟩ dims) (i : Fin a) (j : Fin b) :
    broadcastInDim ⟨2, ![a, b]⟩ dims h x (ix2 i j) = x (ix2 i (0 : Fin 1)) := by
  refine broadcastInDim_apply dims h x (ix2 i j) (ix2 i (0 : Fin 1)) ?_
  intro d
  match d with
  | ⟨0, _⟩ =>
    show i.val = if a = 1 then 0 else ((ix2 i j : (⟨2, ![a, b]⟩ : Shape).Idx) (dims 0)).val
    rw [hd0, if_neg ha]
  | ⟨1, _⟩ =>
    show 0 = if (1 : ℕ) = 1 then 0 else ((ix2 i j : (⟨2, ![a, b]⟩ : Shape).Idx) (dims 1)).val
    rw [if_pos rfl]

end Idealize.ShloMosaic.Column
-- ==== Proof.Ideal.Payload0.lean ====
import proofs.«100021_j83854941487389_1_alg».proof.Proof.Gen.KernelIdeal.Skeleton
import proofs.«100021_j83854941487389_1_alg».proof.Proof.LibColumn
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Hand

open Idealize.ShloMosaic Idealize.ShloMosaic.ValueIdx Idealize.ShloMosaic.Column
open Cert.KernelIdeal Cert.KernelIdeal.Gen

/-! # Kernel 0's arithmetic at an index, on the extended reals

The body's payload adds to the accumulator the product of the transposed 1024 × 1024 eigenvector block with the mass-weighted 1024 × 128
signal block: at `(p, q)` that is `acc[p, q] + ∑ j, E[j, p] · (x[j, q] · μ[j])` (a change of float format is the identity on the extended reals). -/

/-- The contraction runs over axis 0 of both operands; the result's row is the left operand's axis 1, its column the right operand's axis 1. -/
theorem lhs_k0_0 (i : S1024x128.Idx) (q : dot_S1024x1024_S1024x128_S1024x128_0_0_1_1_n_n.contr.Idx) :
    (dot_S1024x1024_S1024x128_S1024x128_0_0_1_1_n_n.lhsIdx i q 0).val = (q ⟨0, by decide⟩).val :=
  dot_S1024x1024_S1024x128_S1024x128_0_0_1_1_n_n.lhsIdx_val_of_single rfl i q
theorem lhs_k0_1 (i : S1024x128.Idx) (q : dot_S1024x1024_S1024x128_S1024x128_0_0_1_1_n_n.contr.Idx) :
    (dot_S1024x1024_S1024x128_S1024x128_0_0_1_1_n_n.lhsIdx i q 1).val = (i 0).val := by
  unfold DotDims.lhsIdx
  rw [dif_neg (show ¬(1 : Fin S1024x1024.rank) ∈ dot_S1024x1024_S1024x128_S1024x128_0_0_1_1_n_n.lhsBatch by decide), dif_pos (show (1 : Fin S1024x1024.rank) ∈ dot_S1024x1024_S1024x128_S1024x128_0_0_1_1_n_n.lhsNonContracting by decide)]
  rfl
theorem rhs_k0_0 (i : S1024x128.Idx) (q : dot_S1024x1024_S1024x128_S1024x128_0_0_1_1_n_n.contr.Idx) :
    (dot_S1024x1024_S1024x128_S1024x128_0_0_1_1_n_n.rhsIdx i q 0).val = (q ⟨0, by decide⟩).val :=
  dot_S1024x1024_S1024x128_S1024x128_0_0_1_1_n_n.rhsIdx_val_of_single rfl i q
theorem rhs_k0_1 (i : S1024x128.Idx) (q : dot_S1024x1024_S1024x128_S1024x128_0_0_1_1_n_n.contr.Idx) :
    (dot_S1024x1024_S1024x128_S1024x128_0_0_1_1_n_n.rhsIdx i q 1).val = (i 1).val := by
  unfold DotDims.rhsIdx
  rw [dif_neg (show ¬(1 : Fin S1024x128.rank) ∈ dot_S1024x1024_S1024x128_S1024x128_0_0_1_1_n_n.rhsBatch by decide), dif_pos (show (1 : Fin S1024x128.rank) ∈ dot_S1024x1024_S1024x128_S1024x128_0_0_1_1_n_n.rhsNonContracting by decide)]
  rfl

/-- The matrix unit's product into the zero accumulator, at `(p, q)`: the sum over the shared row index. -/
theorem k0_matmul_apply (L : FVec Ideal S1024x1024 .bf16) (R : FVec Ideal S1024x128 .bf16) (p : Fin 1024) (q : Fin 128) :
    matmul dot_S1024x1024_S1024x128_S1024x128_0_0_1_1_n_n none L R (constant S1024x128 .f32 0x00000000#32) (ix2 p q)
      = ∑ j : Fin 1024, L (ix2 j p) * R (ix2 j q) := by
  simp only [matmul]
  rw [Ideal.matmul_constant_zero_apply, ← Equiv.sum_comp (ValueIdx.contrEquiv1 dot_S1024x1024_S1024x128_S1024x128_0_0_1_1_n_n 1024 rfl rfl).symm]
  refine Finset.sum_congr rfl fun k _ => ?_
  have hk := ValueIdx.contrEquiv1_symm_val dot_S1024x1024_S1024x128_S1024x128_0_0_1_1_n_n 1024 rfl rfl k
  have el : dot_S1024x1024_S1024x128_S1024x128_0_0_1_1_n_n.lhsIdx (ix2 p q) ((ValueIdx.contrEquiv1 dot_S1024x1024_S1024x128_S1024x128_0_0_1_1_n_n 1024 rfl rfl).symm k) = ix2 k p := funext fun a => Fin.ext (by
    match a with
    | ⟨0, _⟩ => exact (lhs_k0_0 _ _).trans hk
    | ⟨1, _⟩ => exact lhs_k0_1 _ _)
  have er : dot_S1024x1024_S1024x128_S1024x128_0_0_1_1_n_n.rhsIdx (ix2 p q) ((ValueIdx.contrEquiv1 dot_S1024x1024_S1024x128_S1024x128_0_0_1_1_n_n 1024 rfl rfl).symm k) = ix2 k q := funext fun a => Fin.ext (by
    match a with
    | ⟨0, _⟩ => exact (rhs_k0_0 _ _).trans hk
    | ⟨1, _⟩ => exact rhs_k0_1 _ _)
  rw [el, er]

/-- The reset stores the zero block. -/
theorem k0_pay1_apply (i : S1024x128.Idx) : k0_pay1 (F := Ideal) i = 0 := by
  unfold k0_pay1
  rw [shapeCast_self]
  exact Ideal.ofBits_zero_f32

/-- The accumulation at `(p, q)`. -/
theorem k0_pay2_apply (x : Vec Ideal S1024x128 .f32) (μ : Vec Ideal S1024 .f32) (E : Vec Ideal S1024x1024 .f32) (acc : Vec Ideal S1024x128 .f32)
    (p : Fin 1024) (q : Fin 128) :
    k0_pay2 (F := Ideal) x μ E acc (ix2 p q) = acc (ix2 p q) + ∑ j : Fin 1024, E (ix2 j p) * (x (ix2 j q) * μ (ix1 j)) := by
  unfold k0_pay2
  rw [shapeCast_self, addf_apply, k0_matmul_apply]
  refine congrArg (acc (ix2 p q) + ·) (Finset.sum_congr rfl fun j _ => ?_)
  rw [truncf_apply, truncf_apply, mulf_apply, broadcastTo_a1_ab_apply (by decide), shapeCast_a_a1_apply]

end Cert.KernelIdeal.Hand

end
-- ==== Proof.Spec.lean ====
import Idealize.ShloMosaic.PureOps.Ideal
import Idealize.ShloMosaic.Lib.ValueIdx
import Mathlib.Algebra.BigOperators.Fin
import Mathlib.Algebra.BigOperators.Intervals

/-!
# Spectral diffusion: the two matrix products, index by index, and how a blocked accumulation sums to them

With `E` the 8192 × 8192 eigenvector matrix, `x` the 8192 × 128 signal, `μ` the mass vector and `κ` the 8192 × 128 table of
diffusion coefficients, the spectral coefficients are `X[p, q] = ∑ r, E[r, p] · (x[r, q] · μ[r])` (the transposed matrix against the
mass-weighted signal) and the diffused signal is `Y[p, q] = ∑ r, E[p, r] · (X[r, q] · κ[r, q])`.

A kernel that walks the contracted axis in 8 blocks of 1024 rows, adding each block's partial product to an accumulator that starts at
zero, ends with `0 + ∑ s < 8, ∑ j < 1024, term (1024 · s + j)`: over a commutative monoid that is the sum over all 8192 rows
(`sum_blocks`), whatever the terms are — no finiteness is needed, only associativity of the extended reals' addition.
-/

noncomputable section

open scoped BigOperators

namespace Cert.Diffusion

open Idealize.ShloMosaic Idealize.ShloMosaic.ValueIdx

/-- A sum walked in `n` consecutive blocks of `b` terms is the sum of the first `b · n` terms. -/
theorem sum_blocks {M : Type*} [AddCommMonoid M] (f : ℕ → M) (b : ℕ) :
    ∀ n : ℕ, ∑ s ∈ Finset.range n, ∑ j ∈ Finset.range b, f (b * s + j) = ∑ r ∈ Finset.range (b * n), f r
  | 0 => by simp
  | n + 1 => by rw [Finset.sum_range_succ, sum_blocks f b n, Nat.mul_succ, Finset.sum_range_add]

/-- One more block added to a running sum that started from `z`. -/
theorem acc_step {M : Type*} [AddCommMonoid M] (z : M) (g : ℕ → M) (k : ℕ) :
    (z + ∑ s ∈ Finset.range k, g s) + g k = z + ∑ s ∈ Finset.range (k + 1), g s := by
  rw [Finset.sum_range_succ, add_assoc]

/-- An `[a, b]` array read at natural-number coordinates (zero outside the array; never read there). -/
def at2 {a b : ℕ} (x : (⟨2, ![a, b]⟩ : Shape).Idx → EReal) (i j : ℕ) : EReal :=
  if h : i < a ∧ j < b then x (ix2 ⟨i, h.1⟩ ⟨j, h.2⟩) else 0

theorem at2_ix {a b : ℕ} (x : (⟨2, ![a, b]⟩ : Shape).Idx → EReal) (p : Fin a) (q : Fin b) : at2 x p.val q.val = x (ix2 p q) := by
  unfold at2; rw [dif_pos ⟨p.isLt, q.isLt⟩]

theorem at2_eq {a b : ℕ} (x : (⟨2, ![a, b]⟩ : Shape).Idx → EReal) (p : Fin a) (q : Fin b) (i j : ℕ) (hi : i = p.val) (hj : j = q.val) :
    x (ix2 p q) = at2 x i j := by
  subst hi hj; exact (at2_ix x p q).symm

/-- A vector read at a natural-number coordinate. -/
def at1 {a : ℕ} (x : (⟨1, ![a]⟩ : Shape).Idx → EReal) (i : ℕ) : EReal :=
  if h : i < a then x (ix1 ⟨i, h⟩) else 0

theorem at1_ix {a : ℕ} (x : (⟨1, ![a]⟩ : Shape).Idx → EReal) (p : Fin a) : at1 x p.val = x (ix1 p) := by
  unfold at1; rw [dif_pos p.isLt]

theorem at1_eq {a : ℕ} (x : (⟨1, ![a]⟩ : Shape).Idx → EReal) (p : Fin a) (i : ℕ) (hi : i = p.val) : x (ix1 p) = at1 x i := by
  subst hi; exact (at1_ix x p).symm

/-- The term of the first product at row `r` of the contracted axis: `E[r, P] · (x[r, q] · μ[r])`. -/
def term0 (E : (⟨2, ![8192, 8192]⟩ : Shape).Idx → EReal) (x : (⟨2, ![8192, 128]⟩ : Shape).Idx → EReal)
    (μ : (⟨1, ![8192]⟩ : Shape).Idx → EReal) (P q : ℕ) (r : ℕ) : EReal :=
  at2 E r P * (at2 x r q * at1 μ r)

/-- The spectral coefficients `X[p, q] = ∑ r, E[r, p] · (x[r, q] · μ[r])`. -/
def specX (E : (⟨2, ![8192, 8192]⟩ : Shape).Idx → EReal) (x : (⟨2, ![8192, 128]⟩ : Shape).Idx → EReal)
    (μ : (⟨1, ![8192]⟩ : Shape).Idx → EReal) (p : Fin 8192) (q : Fin 128) : EReal :=
  ∑ r : Fin 8192, E (ix2 r p) * (x (ix2 r q) * μ (ix1 r))

/-- The same as an array. -/
def arrX (E : (⟨2, ![8192, 8192]⟩ : Shape).Idx → EReal) (x : (⟨2, ![8192, 128]⟩ : Shape).Idx → EReal)
    (μ : (⟨1, ![8192]⟩ : Shape).Idx → EReal) : (⟨2, ![8192, 128]⟩ : Shape).Idx → EReal :=
  fun i => specX E x μ ⟨(i 0).val, (i 0).isLt⟩ ⟨(i 1).val, (i 1).isLt⟩

theorem arrX_ix (E : (⟨2, ![8192, 8192]⟩ : Shape).Idx → EReal) (x : (⟨2, ![8192, 128]⟩ : Shape).Idx → EReal)
    (μ : (⟨1, ![8192]⟩ : Shape).Idx → EReal) (p : Fin 8192) (q : Fin 128) : arrX E x μ (ix2 p q) = specX E x μ p q := rfl

/-- Summed over the rows as natural numbers. -/
theorem specX_eq_range (E : (⟨2, ![8192, 8192]⟩ : Shape).Idx → EReal) (x : (⟨2, ![8192, 128]⟩ : Shape).Idx → EReal)
    (μ : (⟨1, ![8192]⟩ : Shape).Idx → EReal) (p : Fin 8192) (q : Fin 128) :
    specX E x μ p q = ∑ r ∈ Finset.range 8192, term0 E x μ p.val q.val r := by
  rw [← Fin.sum_univ_eq_sum_range (fun r => term0 E x μ p.val q.val r) 8192]
  refine Finset.sum_congr rfl fun r _ => ?_
  unfold term0
  rw [at2_ix E r p, at2_ix x r q, at1_ix μ r]

/-- Walked in 8 blocks of 1024 rows from zero, the first product's accumulation is the spectral coefficient. -/
theorem blocks_specX (E : (⟨2, ![8192, 8192]⟩ : Shape).Idx → EReal) (x : (⟨2, ![8192, 128]⟩ : Shape).Idx → EReal)
    (μ : (⟨1, ![8192]⟩ : Shape).Idx → EReal) (p : Fin 8192) (q : Fin 128) :
    (0 : EReal) + ∑ s ∈ Finset.range 8, ∑ j ∈ Finset.range 1024, term0 E x μ p.val q.val (1024 * s + j) = specX E x μ p q := by
  rw [zero_add, sum_blocks (term0 E x μ p.val q.val) 1024 8, specX_eq_range]

/-- The term of the second product at row `r`: `E[P, r] · (X[r, q] · κ[r, q])`. -/
def term1 (E : (⟨2, ![8192, 8192]⟩ : Shape).Idx → EReal) (X κ : (⟨2, ![8192, 128]⟩ : Shape).Idx → EReal) (P q : ℕ) (r : ℕ) : EReal :=
  at2 E P r * (at2 X r q * at2 κ r q)

/-- The diffused signal `Y[p, q] = ∑ r, E[p, r] · (X[r, q] · κ[r, q])`. -/
def specY (E : (⟨2, ![8192, 8192]⟩ : Shape).Idx → EReal) (X κ : (⟨2, ![8192, 128]⟩ : Shape).Idx → EReal) (p : Fin 8192) (q : Fin 128) : EReal :=
  ∑ r : Fin 8192, E (ix2 p r) * (X (ix2 r q) * κ (ix2 r q))

def arrY (E : (⟨2, ![8192, 8192]⟩ : Shape).Idx → EReal) (X κ : (⟨2, ![8192, 128]⟩ : Shape).Idx → EReal) :
    (⟨2, ![8192, 128]⟩ : Shape).Idx → EReal :=
  fun i => specY E X κ ⟨(i 0).val, (i 0).isLt⟩ ⟨(i 1).val, (i 1).isLt⟩

theorem arrY_ix (E : (⟨2, ![8192, 8192]⟩ : Shape).Idx → EReal) (X κ : (⟨2, ![8192, 128]⟩ : Shape).Idx → EReal)
    (p : Fin 8192) (q : Fin 128) : arrY E X κ (ix2 p q) = specY E X κ p q := rfl

theorem specY_eq_range (E : (⟨2, ![8192, 8192]⟩ : Shape).Idx → EReal) (X κ : (⟨2, ![8192, 128]⟩ : Shape).Idx → EReal) (p : Fin 8192) (q : Fin 128) :
    specY E X κ p q = ∑ r ∈ Finset.range 8192, term1 E X κ p.val q.val r := by
  rw [← Fin.sum_univ_eq_sum_range (fun r => term1 E X κ p.val q.val r) 8192]
  refine Finset.sum_congr rfl fun r _ => ?_
  unfold term1
  rw [at2_ix E p r, at2_ix X r q, at2_ix κ r q]

theorem blocks_specY (E : (⟨2, ![8192, 8192]⟩ : Shape).Idx → EReal) (X κ : (⟨2, ![8192, 128]⟩ : Shape).Idx → EReal) (p : Fin 8192) (q : Fin 128) :
    (0 : EReal) + ∑ s ∈ Finset.range 8, ∑ j ∈ Finset.range 1024, term1 E X κ p.val q.val (1024 * s + j) = specY E X κ p q := by
  rw [zero_add, sum_blocks (term1 E X κ p.val q.val) 1024 8, specY_eq_range]

end Cert.Diffusion

end
-- ==== Proof.Ideal.Value0.lean ====
import proofs.«100021_j83854941487389_1_alg».proof.Proof.Ideal.Pieces0
import proofs.«100021_j83854941487389_1_alg».proof.Proof.Ideal.Payload0
import proofs.«100021_j83854941487389_1_alg».proof.Proof.Spec
import Idealize.ShloMosaic.Lib.Pipeline.Value

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen Cert.Diffusion

/-! # Region 0's result: the spectral coefficients

At the ideal instance, with `V` the buffers' contents when the region is entered: the result array ends holding
`X[P, q] = ∑ r, E[r, P] · (x[r, q] · μ[r])` of the eigenvector matrix `E`, the signal `x` and the mass vector `μ` as the region finds them.
Point `t` of the 8 × 8 grid (row-major: output block row `t / 8`, reduction step `t % 8`) reads rows `1024 · (t % 8) + j` of all three
arrays and columns `1024 · (t / 8) + p` of `E`; the scratch after the point is the sum of the steps so far, by induction on the point; the
step-7 points write the finished block back, and their blocks tile the array. -/

variable (V : (c : Dev nD) → (b : Ref sig .tc) → Buf (Elt Ideal) ((c : Thread nD τ).loc b))

/-- The three arrays the region reads, by their literal types. -/
abbrev evA (c : Dev nD) : (⟨2, ![8192, 8192]⟩ : Shape).Idx → EReal := V c main_arg6
abbrev xA (c : Dev nD) : (⟨2, ![8192, 128]⟩ : Shape).Idx → EReal := V c main_arg0
abbrev muA (c : Dev nD) : (⟨1, ![8192]⟩ : Shape).Idx → EReal := V c main_arg3

/-! ## The index maps over the grid, and the blocks as rows and columns of the arrays -/

theorem idx0_0 : ∀ t : Fin cfg0.N, win0_0.index t (0 : Fin 2) = t.val % 8 ∧ win0_0.index t (1 : Fin 2) = t.val / 8 :=
  (by decide +kernel : ∀ t : Fin grid0.N, win0_0.index t (0 : Fin 2) = t.val % 8 ∧ win0_0.index t (1 : Fin 2) = t.val / 8)
theorem idx0_1 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)
theorem idx0_2 : ∀ t : Fin cfg0.N, win0_2.index t (0 : Fin 1) = t.val % 8 :=
  (by decide +kernel : ∀ t : Fin grid0.N, win0_2.index t (0 : Fin 1) = t.val % 8)
theorem idx0_3 : ∀ t : Fin cfg0.N, win0_3.index t (0 : Fin 2) = t.val / 8 ∧ win0_3.index t (1 : Fin 2) = 0 :=
  (by decide +kernel : ∀ t : Fin grid0.N, win0_3.index t (0 : Fin 2) = t.val / 8 ∧ win0_3.index t (1 : Fin 2) = 0)

/-- The three input blocks at point `t`, by their literal types. -/
abbrev eblk0 (c : Dev nD) (t : Fin cfg0.N) : Vec Ideal S1024x1024 .f32 := iblk0 V c 0 t
abbrev xblk0 (c : Dev nD) (t : Fin cfg0.N) : Vec Ideal S1024x128 .f32 := iblk0 V c 1 t
abbrev mblk0 (c : Dev nD) (t : Fin cfg0.N) : Vec Ideal S1024 .f32 := iblk0 V c 2 t

/-- The eigenvector block at point `t`: rows of step `t % 8`, columns of block row `t / 8`. -/
theorem blk0_0 (c : Dev nD) (t : Fin cfg0.N) (j p : Fin 1024) :
    eblk0 V c t (ix2 j p) = at2 (evA V c) (1024 * (t.val % 8) + j.val) (1024 * (t.val / 8) + p.val) := by
  have hN : t.val < 64 := lt_of_lt_of_eq t.isLt N_0
  have hj : 1024 * (t.val % 8) + j.val < 8192 := by have := j.isLt; omega
  have hp : 1024 * (t.val / 8) + p.val < 8192 := by have := p.isLt; omega
  rw [← at2_eq (evA V c) ⟨_, hj⟩ ⟨_, hp⟩ _ _ rfl rfl]
  unfold eblk0 iblk0
  rw [View.read_apply]
  refine congrArg (V c main_arg6) (funext fun a => Fin.ext ?_)
  match a with
  | ⟨0, _⟩ => show win0_0.index t (0 : Fin 2) * 1024 + 1 * j.val = 1024 * (t.val % 8) + j.val; rw [(idx0_0 t).1]; omega
  | ⟨1, _⟩ => show win0_0.index t (1 : Fin 2) * 1024 + 1 * p.val = 1024 * (t.val / 8) + p.val; rw [(idx0_0 t).2]; omega

/-- The signal block: rows of step `t % 8`, all 128 columns. -/
theorem blk0_1 (c : Dev nD) (t : Fin cfg0.N) (j : Fin 1024) (q : Fin 128) :
    xblk0 V c t (ix2 j q) = at2 (xA V c) (1024 * (t.val % 8) + j.val) q.val := by
  have hN : t.val < 64 := lt_of_lt_of_eq t.isLt N_0
  have hj : 1024 * (t.val % 8) + j.val < 8192 := by have := j.isLt; omega
  rw [← at2_eq (xA V c) ⟨_, hj⟩ q _ _ rfl rfl]
  unfold xblk0 iblk0
  rw [View.read_apply]
  refine congrArg (V c main_arg0) (funext fun a => Fin.ext ?_)
  match a with
  | ⟨0, _⟩ => show win0_1.index t (0 : Fin 2) * 1024 + 1 * j.val = 1024 * (t.val % 8) + j.val; rw [(idx0_1 t).1]; omega
  | ⟨1, _⟩ => show win0_1.index t (1 : Fin 2) * 128 + 1 * q.val = q.val; rw [(idx0_1 t).2]; omega

/-- The mass block: entries of step `t % 8`. -/
theorem blk0_2 (c : Dev nD) (t : Fin cfg0.N) (j : Fin 1024) :
    mblk0 V c t (ix1 j) = at1 (muA V c) (1024 * (t.val % 8) + j.val) := by
  have hN : t.val < 64 := lt_of_lt_of_eq t.isLt N_0
  have hj : 1024 * (t.val % 8) + j.val < 8192 := by have := j.isLt; omega
  rw [← at1_eq (muA V c) ⟨_, hj⟩ _ rfl]
  unfold mblk0 iblk0
  rw [View.read_apply]
  refine congrArg (V c main_arg3) (funext fun a => Fin.ext ?_)
  match a with
  | ⟨0, _⟩ => show win0_2.index t (0 : Fin 1) * 1024 + 1 * j.val = 1024 * (t.val % 8) + j.val; rw [idx0_2 t]; omega

/-- One step's partial product at `(p, q)`, as terms of the whole contraction. -/
theorem step0 (c : Dev nD) (t : Fin cfg0.N) (p : Fin 1024) (q : Fin 128) :
    (∑ j : Fin 1024, eblk0 V c t (ix2 j p)
        * (xblk0 V c t (ix2 j q) * mblk0 V c t (ix1 j)))
      = ∑ j ∈ Finset.range 1024, term0 (evA V c) (xA V c) (muA V c) (1024 * (t.val / 8) + p.val) q.val (1024 * (t.val % 8) + j) := by
  rw [← Fin.sum_univ_eq_sum_range (fun j => term0 (evA V c) (xA V c) (muA V c) (1024 * (t.val / 8) + p.val) q.val (1024 * (t.val % 8) + j)) 1024]
  refine Finset.sum_congr rfl fun j _ => ?_
  rw [blk0_0, blk0_1, blk0_2]
  rfl

/-! ## The scratch point by point -/

/-- Where a reduction starts the scratch ends at the payload over the zero block; -/
theorem scr0_first (c : Dev nD) (t : Fin cfg0.N) (h0 : t.val % 8 = 0) :
    (outsAt0 V c t.val t.isLt).2 = k0_pay2 (F := Ideal) (xblk0 V c t) (mblk0 V c t) (eblk0 V c t) (k0_pay1 (F := Ideal)) := by
  have h1 : ¬t.val % 8 = 7 := by omega
  rw [outsAt0_A V c t h0 h1]
  dsimp only
  exact sout0_A_eq c (grid0.coords t) (ms0_0 t) (hs0_0 t) (ms0_1 t) (hs0_1 t) (ms0_2 t) (hs0_2 t) (ms0_3 t) (hs0_3 t) scM0 (Memref.isWhole_whole _) _ _ (iblk0 V c 0 t) (iblk0 V c 1 t) (iblk0 V c 2 t)

/-- elsewhere at the payload over what the point before left. -/
theorem scr0_next (c : Dev nD) (t : Fin cfg0.N) (h0 : ¬t.val % 8 = 0) :
    (outsAt0 V c t.val t.isLt).2 = k0_pay2 (F := Ideal) (xblk0 V c t) (mblk0 V c t) (eblk0 V c t)
      (outsAt0 V c (t.val - 1) (Nat.lt_of_le_of_lt (Nat.sub_le _ _) t.isLt)).2 := by
  by_cases h1 : t.val % 8 = 7
  · rw [outsAt0_C V c t h0 h1]
    dsimp only
    exact sout0_C_eq c (grid0.coords t) (ms0_0 t) (hs0_0 t) (ms0_1 t) (hs0_1 t) (ms0_2 t) (hs0_2 t) (ms0_3 t) (hs0_3 t) scM0 (Memref.isWhole_whole _) _ _ (iblk0 V c 0 t) (iblk0 V c 1 t) (iblk0 V c 2 t) _
  · rw [outsAt0_B V c t h0 h1]
    dsimp only
    exact sout0_B_eq c (grid0.coords t) (ms0_0 t) (hs0_0 t) (ms0_1 t) (hs0_1 t) (ms0_2 t) (hs0_2 t) (ms0_3 t) (hs0_3 t) scM0 (Memref.isWhole_whole _) _ _ (iblk0 V c 0 t) (iblk0 V c 1 t) (iblk0 V c 2 t) _

/-- Where a reduction ends the output block's buffer holds what the scratch holds. -/
theorem out0_last (c : Dev nD) (t : Fin cfg0.N) (h1 : t.val % 8 = 7) :
    (outsAt0 V c t.val t.isLt).1 = (outsAt0 V c t.val t.isLt).2 := by
  have h0 : ¬t.val % 8 = 0 := by omega
  rw [outsAt0_C V c t h0 h1]
  dsimp only
  rw [out0_C_eq, sout0_C_eq]

/-- THE RUNNING SUM. After position `n` the scratch holds, at `(p, q)`, zero plus the partial products of steps `0 … n % 8` of
    block row `n / 8`. -/
theorem scr0_eq (c : Dev nD) : ∀ (n : ℕ) (hn : n < cfg0.N) (p : Fin 1024) (q : Fin 128),
    (outsAt0 V c n hn).2 (ix2 p q) = (0 : EReal) + ∑ s ∈ Finset.range (n % 8 + 1), ∑ j ∈ Finset.range 1024,
      term0 (evA V c) (xA V c) (muA V c) (1024 * (n / 8) + p.val) q.val (1024 * s + j)
  | n, hn, p, q => by
    by_cases h0 : n % 8 = 0
    · have e := scr0_first V c ⟨n, hn⟩ h0
      dsimp only at e
      rw [e, k0_pay2_apply, k0_pay1_apply, step0]
      dsimp only
      rw [h0, Finset.sum_range_one]
    · have hpos : 0 < n := Nat.pos_of_ne_zero fun h => h0 (by rw [h])
      have e := scr0_next V c ⟨n, hn⟩ h0
      dsimp only at e
      rw [e, k0_pay2_apply, step0]
      dsimp only
      rw [scr0_eq c (n - 1) (Nat.lt_of_le_of_lt (Nat.sub_le _ _) hn) p q]
      have e1 : (n - 1) % 8 + 1 = n % 8 := by omega
      have e2 : (n - 1) / 8 = n / 8 := by omega
      rw [e1, e2]
      exact acc_step (0 : EReal) (fun s => ∑ j ∈ Finset.range 1024, term0 (evA V c) (xA V c) (muA V c) (1024 * (n / 8) + p.val) q.val (1024 * s + j)) (n % 8)
  termination_by n => n

/-! ## The result array -/

/-- What a step-7 point writes back is its block of the spectral coefficients. -/
theorem flushed0 (c : Dev nD) (t : Fin cfg0.N) (hf : (cfg0.win 3).flush t = true) :
    (dat0 V c).flushed 3 t = ((cfg0.win 3).blk t).view.read (Elt Ideal) (arrX (evA V c) (xA V c) (muA V c)) := by
  have h7 : t.val % 8 = 7 := (flush0_3 t).mp hf
  have hN : t.val < 64 := lt_of_lt_of_eq t.isLt N_0
  show (cfg0.win 3).cut (grid0.coords t) ((dat0 V c).after 3 t) = _
  rw [after0_3, out0_last V c t h7]
  funext y
  obtain ⟨p, q, rfl⟩ : ∃ (p : Fin 1024) (q : Fin 128), y = ix2 p q := ⟨y 0, y 1, eq_ix2 y⟩
  have hP : 1024 * (t.val / 8) + p.val < 8192 := by have := p.isLt; omega
  show (outsAt0 V c t.val t.isLt).2 (ix2 p q) = arrX (evA V c) (xA V c) (muA V c) (((cfg0.win 3).blk t).view.emb (ix2 p q))
  have he : ((cfg0.win 3).blk t).view.emb (ix2 p q) = (ix2 ⟨1024 * (t.val / 8) + p.val, hP⟩ q : (⟨2, ![8192, 128]⟩ : Shape).Idx) :=
    funext fun a => Fin.ext (by
      match a with
      | ⟨0, _⟩ => show win0_3.index t (0 : Fin 2) * 1024 + 1 * p.val = 1024 * (t.val / 8) + p.val; rw [(idx0_3 t).1]; omega
      | ⟨1, _⟩ => show win0_3.index t (1 : Fin 2) * 128 + 1 * q.val = q.val; rw [(idx0_3 t).2]; omega)
  rw [he, arrX_ix, scr0_eq V c t.val t.isLt p q, h7]
  exact blocks_specX (evA V c) (xA V c) (muA V c) ⟨_, hP⟩ q

/-- So region 0 leaves the spectral coefficients in its result array. -/
theorem final0 (c : Dev nD) : (dat0 V c).arrAt 3 cfg0.N = arrX (evA V c) (xA V c) (muA V c) :=
  (dat0 V c).arrAt_eq_of_cover 3 (arrX (evA V c) (xA V c) (muA V c)) (flushed0 V c) fun i => by
    -- every index of the result array is in the block the step-7 point of its block row writes back
    have hi0 : (i 0).val < 8192 := (i 0).isLt
    have hi1 : (i 1).val < 128 := (i 1).isLt
    have hN : cfg0.N = 64 := N_0
    have ht : 8 * ((i 0).val / 1024) + 7 < cfg0.N := by rw [hN]; omega
    have e := idx0_3 ⟨8 * ((i 0).val / 1024) + 7, ht⟩
    dsimp only at e
    refine ⟨⟨8 * ((i 0).val / 1024) + 7, ht⟩, (flush0_3 _).mpr (by dsimp only; omega), ?_⟩
    show i ∈ ((View.whole main_v24).slice (win0_3.rect ⟨8 * ((i 0).val / 1024) + 7, ht⟩)).set
    rw [View.set_slice_whole, Rect.mem_set_unit]
    intro a
    match a with
    | ⟨0, _⟩ =>
      show win0_3.index ⟨8 * ((i 0).val / 1024) + 7, ht⟩ (0 : Fin 2) * 1024 ≤ (i 0).val ∧ (i 0).val < win0_3.index ⟨8 * ((i 0).val / 1024) + 7, ht⟩ (0 : Fin 2) * 1024 + 1024
      rw [e.1]; omega
    | ⟨1, _⟩ =>
      show win0_3.index ⟨8 * ((i 0).val / 1024) + 7, ht⟩ (1 : Fin 2) * 128 ≤ (i 1).val ∧ (i 1).val < win0_3.index ⟨8 * ((i 0).val / 1024) + 7, ht⟩ (1 : Fin 2) * 128 + 128
      rw [e.2]; omega

end Cert.KernelIdeal.Hand

end
-- ==== Proof.Ideal.Pieces1.lean ====
import proofs.«100021_j83854941487389_1_alg».proof.Proof.Ideal.Frame1
import Idealize.ShloMosaic.Lib.Pipeline.Value
import proofs.«100021_j83854941487389_1_alg».proof.Proof.Ideal.Zero

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1: what each case's stores leave, as values

The accumulator scratch after a point is the body's one arithmetic payload, `k1_pay2`, of the point's three input blocks and of what the
scratch held: the zero block (`k1_pay1`) where the reduction starts, what the point before left elsewhere. Where a reduction ends the
output block's buffer receives the same value. -/

/-- Where the reduction starts: the zero block is stored, read back, and the first product added to it. -/
theorem sout1_A_eq (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i) (x0 : Vec F S1024x1024 .f32) (x1 : Vec F S1024x128 .f32) (x2 : Vec F S1024x128 .f32) :
    sout1_A c i arg2 harg2 arg3 harg3 arg4 harg4 arg5 harg5 arg6 harg6 hc0 hc1 x0 x1 x2 = k1_pay2 x1 x2 x0 (k1_pay1 (F := F)) := by
  unfold sout1_A
  rw [View.read_writes_eq_canon _ _ _ (scover1_A c i arg2 harg2 arg3 harg3 arg4 harg4 arg5 harg5 arg6 harg6 hc0 hc1 x0 x1 x2)]
  unfold kernelRun1_A
  dsimp only
  sl_unfold_words
  rw [View.canon_cons_unit_zero (S := S1024x128) hz2]
  simp only [View.readAt_eq_ld, harg2.read_unread, harg3.read_unread, harg4.read_unread, harg6.read_unread, View.readCov_unit_zero (S := S1024x128) _ hz2, View.ld_unit_zero (S := S1024x128) hz2, View.ld_unit_zero (S := S1024x1024) hz2, View.ld_unit_zero (S := S1024) hz1]

/-- Inside a reduction: the point's product is added to what the scratch held. -/
theorem sout1_B_eq (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i) (x0 : Vec F S1024x1024 .f32) (x1 : Vec F S1024x128 .f32) (x2 : Vec F S1024x128 .f32) (xs0 : Vec F S1024x128 .f32) :
    sout1_B c i arg2 harg2 arg3 harg3 arg4 harg4 arg5 harg5 arg6 harg6 hc0 hc1 x0 x1 x2 xs0 = k1_pay2 x1 x2 x0 xs0 := by
  unfold sout1_B
  rw [View.read_writes_eq_canon _ _ _ (scover1_B c i arg2 harg2 arg3 harg3 arg4 harg4 arg5 harg5 arg6 harg6 hc0 hc1 x0 x1 x2 xs0)]
  unfold kernelRun1_B
  dsimp only
  sl_unfold_words
  rw [View.canon_unit_zero hz2]
  simp only [View.readAt_eq_ld, harg2.read_unread, harg3.read_unread, harg4.read_unread, harg6.read_unread, View.readCov_unit_zero (S := S1024x128) _ hz2, View.ld_unit_zero (S := S1024x128) hz2, View.ld_unit_zero (S := S1024x1024) hz2, View.ld_unit_zero (S := S1024) hz1]

/-- Where the reduction ends: the same in the scratch, -/
theorem sout1_C_eq (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i) (x0 : Vec F S1024x1024 .f32) (x1 : Vec F S1024x128 .f32) (x2 : Vec F S1024x128 .f32) (xs0 : Vec F S1024x128 .f32) :
    sout1_C c i arg2 harg2 arg3 harg3 arg4 harg4 arg5 harg5 arg6 harg6 hc0 hc1 x0 x1 x2 xs0 = k1_pay2 x1 x2 x0 xs0 := by
  unfold sout1_C
  rw [View.read_writes_eq_canon _ _ _ (scover1_C c i arg2 harg2 arg3 harg3 arg4 harg4 arg5 harg5 arg6 harg6 hc0 hc1 x0 x1 x2 xs0)]
  unfold kernelRun1_C
  dsimp only
  sl_unfold_words
  rw [View.canon_unit_zero hz2]
  simp only [View.readAt_eq_ld, harg2.read_unread, harg3.read_unread, harg4.read_unread, harg6.read_unread, View.readCov_unit_zero (S := S1024x128) _ hz2, View.ld_unit_zero (S := S1024x128) hz2, View.ld_unit_zero (S := S1024x1024) hz2, View.ld_unit_zero (S := S1024) hz1]

/-- and the output block's buffer holds a copy of it. -/
theorem out1_C_eq (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i) (x0 : Vec F S1024x1024 .f32) (x1 : Vec F S1024x128 .f32) (x2 : Vec F S1024x128 .f32) (xs0 : Vec F S1024x128 .f32) :
    out1_C c i arg2 harg2 arg3 harg3 arg4 harg4 arg5 harg5 arg6 harg6 hc0 hc1 x0 x1 x2 xs0 = k1_pay2 x1 x2 x0 xs0 := by
  unfold out1_C
  rw [View.read_writes_eq_canon _ _ _ (cover1_C c i arg2 harg2 arg3 harg3 arg4 harg4 arg5 harg5 arg6 harg6 hc0 hc1 x0 x1 x2 xs0)]
  unfold kernelRun1_C
  dsimp only
  sl_unfold_words
  rw [View.canon_unit_zero hz2]
  simp only [View.readAt_eq_ld, harg2.read_unread, harg3.read_unread, harg4.read_unread, harg6.read_unread, View.readCov_unit_zero (S := S1024x128) _ hz2, View.ld_unit_zero (S := S1024x128) hz2, View.ld_unit_zero (S := S1024x1024) hz2, View.ld_unit_zero (S := S1024) hz1]

end Cert.KernelIdeal.Hand

end
-- ==== Proof.Ideal.Payload1.lean ====
import proofs.«100021_j83854941487389_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Hand

open Idealize.ShloMosaic Idealize.ShloMosaic.ValueIdx
open Cert.KernelIdeal Cert.KernelIdeal.Gen

/-! # Kernel 1's arithmetic at an index, on the extended reals

The body's payload adds to the accumulator the product of the 1024 × 1024 eigenvector block with the 1024 × 128 block of spectral
coefficients scaled entry by entry by the diffusion coefficients: at `(p, q)` that is `acc[p, q] + ∑ j, E[p, j] · (X[j, q] · κ[j, q])`. -/

/-- The contraction runs over the left operand's axis 1 and the right operand's axis 0. -/
theorem lhs_k1_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhs_k1_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem rhs_k1_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem rhs_k1_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The matrix unit's product into the zero accumulator, at `(p, q)`. -/
theorem k1_matmul_apply (L : FVec Ideal S1024x1024 .bf16) (R : FVec Ideal S1024x128 .bf16) (p : Fin 1024) (q : Fin 128) :
    matmul dot_S1024x1024_S1024x128_S1024x128_1_0_0_1_n_n none L R (constant S1024x128 .f32 0x00000000#32) (ix2 p q)
      = ∑ j : Fin 1024, L (ix2 p j) * R (ix2 j q) := by
  simp only [matmul]
  rw [Ideal.matmul_constant_zero_apply, ← Equiv.sum_comp (ValueIdx.contrEquiv1 dot_S1024x1024_S1024x128_S1024x128_1_0_0_1_n_n 1024 rfl rfl).symm]
  refine Finset.sum_congr rfl fun k _ => ?_
  have hk := ValueIdx.contrEquiv1_symm_val dot_S1024x1024_S1024x128_S1024x128_1_0_0_1_n_n 1024 rfl rfl k
  have el : dot_S1024x1024_S1024x128_S1024x128_1_0_0_1_n_n.lhsIdx (ix2 p q) ((ValueIdx.contrEquiv1 dot_S1024x1024_S1024x128_S1024x128_1_0_0_1_n_n 1024 rfl rfl).symm k) = ix2 p k := funext fun a => Fin.ext (by
    match a with
    | ⟨0, _⟩ => exact lhs_k1_0 _ _
    | ⟨1, _⟩ => exact (lhs_k1_1 _ _).trans hk)
  have er : dot_S1024x1024_S1024x128_S1024x128_1_0_0_1_n_n.rhsIdx (ix2 p q) ((ValueIdx.contrEquiv1 dot_S1024x1024_S1024x128_S1024x128_1_0_0_1_n_n 1024 rfl rfl).symm k) = ix2 k q := funext fun a => Fin.ext (by
    match a with
    | ⟨0, _⟩ => exact (rhs_k1_0 _ _).trans hk
    | ⟨1, _⟩ => exact rhs_k1_1 _ _)
  rw [el, er]

/-- The reset stores the zero block. -/
theorem k1_pay1_apply (i : S1024x128.Idx) : k1_pay1 (F := Ideal) i = 0 := by
  unfold k1_pay1
  rw [shapeCast_self]
  exact Ideal.ofBits_zero_f32

/-- The accumulation at `(p, q)`. -/
theorem k1_pay2_apply (X κ : Vec Ideal S1024x128 .f32) (E : Vec Ideal S1024x1024 .f32) (acc : Vec Ideal S1024x128 .f32)
    (p : Fin 1024) (q : Fin 128) :
    k1_pay2 (F := Ideal) X κ E acc (ix2 p q) = acc (ix2 p q) + ∑ j : Fin 1024, E (ix2 p j) * (X (ix2 j q) * κ (ix2 j q)) := by
  unfold k1_pay2
  rw [shapeCast_self, addf_apply, k1_matmul_apply]
  refine congrArg (acc (ix2 p q) + ·) (Finset.sum_congr rfl fun j _ => ?_)
  rw [truncf_apply, truncf_apply, mulf_apply, shapeCast_self, shapeCast_self]

end Cert.KernelIdeal.Hand

end
-- ==== Proof.Ideal.Value1.lean ====
import proofs.«100021_j83854941487389_1_alg».proof.Proof.Ideal.Pieces1
import proofs.«100021_j83854941487389_1_alg».proof.Proof.Ideal.Payload1
import proofs.«100021_j83854941487389_1_alg».proof.Proof.Spec
import Idealize.ShloMosaic.Lib.Pipeline.Value

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen Cert.Diffusion

/-! # Region 1's result: the diffused signal

At the ideal instance, with `V` the buffers' contents when the region is entered: the result array ends holding
`Y[P, q] = ∑ r, E[P, r] · (X[r, q] · κ[r, q])` of the eigenvector matrix `E`, the spectral coefficients `X` region 0 left and the
coefficient table `κ` the host operations computed, as the region finds them. Point `t` of the 8 × 8 grid (output block row `t / 8`,
reduction step `t % 8`) reads rows `1024 · (t / 8) + p` and columns `1024 · (t % 8) + j` of `E` and rows `1024 · (t % 8) + j` of `X` and `κ`;
the rest is as for region 0: a running sum by induction on the point, the step-7 points' blocks tiling the array. -/

variable (V : (c : Dev nD) → (b : Ref sig .tc) → Buf (Elt Ideal) ((c : Thread nD τ).loc b))

/-- The three arrays the region reads, by their literal types. -/
abbrev evB (c : Dev nD) : (⟨2, ![8192, 8192]⟩ : Shape).Idx → EReal := V c main_arg6
abbrev xsB (c : Dev nD) : (⟨2, ![8192, 128]⟩ : Shape).Idx → EReal := V c main_v24
abbrev cfB (c : Dev nD) : (⟨2, ![8192, 128]⟩ : Shape).Idx → EReal := V c main_v23

/-! ## The index maps over the grid, and the blocks as rows and columns of the arrays -/

theorem idx1_0 : ∀ t : Fin cfg1.N, win1_0.index t (0 : Fin 2) = t.val / 8 ∧ win1_0.index t (1 : Fin 2) = t.val % 8 :=
  (by decide +kernel : ∀ t : Fin grid1.N, win1_0.index t (0 : Fin 2) = t.val / 8 ∧ win1_0.index t (1 : Fin 2) = t.val % 8)
theorem idx1_1 : ∀ t : Fin cfg1.N, win1_1.index t (0 : Fin 2) = t.val % 8 ∧ win1_1.index t (1 : Fin 2) = 0 :=
  (by decide +kernel : ∀ t : Fin grid1.N, win1_1.index t (0 : Fin 2) = t.val % 8 ∧ win1_1.index t (1 : Fin 2) = 0)
theorem idx1_2 : ∀ t : Fin cfg1.N, win1_2.index t (0 : Fin 2) = t.val % 8 ∧ win1_2.index t (1 : Fin 2) = 0 :=
  (by decide +kernel : ∀ t : Fin grid1.N, win1_2.index t (0 : Fin 2) = t.val % 8 ∧ win1_2.index t (1 : Fin 2) = 0)
theorem idx1_3 : ∀ t : Fin cfg1.N, win1_3.index t (0 : Fin 2) = t.val / 8 ∧ win1_3.index t (1 : Fin 2) = 0 :=
  (by decide +kernel : ∀ t : Fin grid1.N, win1_3.index t (0 : Fin 2) = t.val / 8 ∧ win1_3.index t (1 : Fin 2) = 0)

/-- The three input blocks at point `t`, by their literal types. -/
abbrev eblk1 (c : Dev nD) (t : Fin cfg1.N) : Vec Ideal S1024x1024 .f32 := iblk1 V c 0 t
abbrev xblk1 (c : Dev nD) (t : Fin cfg1.N) : Vec Ideal S1024x128 .f32 := iblk1 V c 1 t
abbrev cblk1 (c : Dev nD) (t : Fin cfg1.N) : Vec Ideal S1024x128 .f32 := iblk1 V c 2 t

/-- The eigenvector block at point `t`: rows of block row `t / 8`, columns of step `t % 8`. -/
theorem blk1_0 (c : Dev nD) (t : Fin cfg1.N) (p j : Fin 1024) :
    eblk1 V c t (ix2 p j) = at2 (evB V c) (1024 * (t.val / 8) + p.val) (1024 * (t.val % 8) + j.val) := by
  have hN : t.val < 64 := lt_of_lt_of_eq t.isLt N_1
  have hp : 1024 * (t.val / 8) + p.val < 8192 := by have := p.isLt; omega
  have hj : 1024 * (t.val % 8) + j.val < 8192 := by have := j.isLt; omega
  rw [← at2_eq (evB V c) ⟨_, hp⟩ ⟨_, hj⟩ _ _ rfl rfl]
  unfold eblk1 iblk1
  rw [View.read_apply]
  refine congrArg (V c main_arg6) (funext fun a => Fin.ext ?_)
  match a with
  | ⟨0, _⟩ => show win1_0.index t (0 : Fin 2) * 1024 + 1 * p.val = 1024 * (t.val / 8) + p.val; rw [(idx1_0 t).1]; omega
  | ⟨1, _⟩ => show win1_0.index t (1 : Fin 2) * 1024 + 1 * j.val = 1024 * (t.val % 8) + j.val; rw [(idx1_0 t).2]; omega

/-- The block of spectral coefficients: rows of step `t % 8`, all 128 columns. -/
theorem blk1_1 (c : Dev nD) (t : Fin cfg1.N) (j : Fin 1024) (q : Fin 128) :
    xblk1 V c t (ix2 j q) = at2 (xsB V c) (1024 * (t.val % 8) + j.val) q.val := by
  have hN : t.val < 64 := lt_of_lt_of_eq t.isLt N_1
  have hj : 1024 * (t.val % 8) + j.val < 8192 := by have := j.isLt; omega
  rw [← at2_eq (xsB V c) ⟨_, hj⟩ q _ _ rfl rfl]
  unfold xblk1 iblk1
  rw [View.read_apply]
  refine congrArg (V c main_v24) (funext fun a => Fin.ext ?_)
  match a with
  | ⟨0, _⟩ => show win1_1.index t (0 : Fin 2) * 1024 + 1 * j.val = 1024 * (t.val % 8) + j.val; rw [(idx1_1 t).1]; omega
  | ⟨1, _⟩ => show win1_1.index t (1 : Fin 2) * 128 + 1 * q.val = q.val; rw [(idx1_1 t).2]; omega

/-- The block of the coefficient table: the same rows and columns. -/
theorem blk1_2 (c : Dev nD) (t : Fin cfg1.N) (j : Fin 1024) (q : Fin 128) :
    cblk1 V c t (ix2 j q) = at2 (cfB V c) (1024 * (t.val % 8) + j.val) q.val := by
  have hN : t.val < 64 := lt_of_lt_of_eq t.isLt N_1
  have hj : 1024 * (t.val % 8) + j.val < 8192 := by have := j.isLt; omega
  rw [← at2_eq (cfB V c) ⟨_, hj⟩ q _ _ rfl rfl]
  unfold cblk1 iblk1
  rw [View.read_apply]
  refine congrArg (V c main_v23) (funext fun a => Fin.ext ?_)
  match a with
  | ⟨0, _⟩ => show win1_2.index t (0 : Fin 2) * 1024 + 1 * j.val = 1024 * (t.val % 8) + j.val; rw [(idx1_2 t).1]; omega
  | ⟨1, _⟩ => show win1_2.index t (1 : Fin 2) * 128 + 1 * q.val = q.val; rw [(idx1_2 t).2]; omega

/-- One step's partial product at `(p, q)`, as terms of the whole contraction. -/
theorem step1 (c : Dev nD) (t : Fin cfg1.N) (p : Fin 1024) (q : Fin 128) :
    (∑ j : Fin 1024, eblk1 V c t (ix2 p j) * (xblk1 V c t (ix2 j q) * cblk1 V c t (ix2 j q)))
      = ∑ j ∈ Finset.range 1024, term1 (evB V c) (xsB V c) (cfB V c) (1024 * (t.val / 8) + p.val) q.val (1024 * (t.val % 8) + j) := by
  rw [← Fin.sum_univ_eq_sum_range (fun j => term1 (evB V c) (xsB V c) (cfB V c) (1024 * (t.val / 8) + p.val) q.val (1024 * (t.val % 8) + j)) 1024]
  refine Finset.sum_congr rfl fun j _ => ?_
  rw [blk1_0, blk1_1, blk1_2]
  rfl

/-! ## The scratch point by point -/

/-- Where a reduction starts the scratch ends at the payload over the zero block; -/
theorem scr1_first (c : Dev nD) (t : Fin cfg1.N) (h0 : t.val % 8 = 0) :
    (outsAt1 V c t.val t.isLt).2 = k1_pay2 (F := Ideal) (xblk1 V c t) (cblk1 V c t) (eblk1 V c t) (k1_pay1 (F := Ideal)) := by
  have h1 : ¬t.val % 8 = 7 := by omega
  rw [outsAt1_A V c t h0 h1]
  dsimp only
  exact sout1_A_eq c (grid1.coords t) (ms1_0 t) (hs1_0 t) (ms1_1 t) (hs1_1 t) (ms1_2 t) (hs1_2 t) (ms1_3 t) (hs1_3 t) scM1 (Memref.isWhole_whole _) _ _ (iblk1 V c 0 t) (iblk1 V c 1 t) (iblk1 V c 2 t)

/-- elsewhere at the payload over what the point before left. -/
theorem scr1_next (c : Dev nD) (t : Fin cfg1.N) (h0 : ¬t.val % 8 = 0) :
    (outsAt1 V c t.val t.isLt).2 = k1_pay2 (F := Ideal) (xblk1 V c t) (cblk1 V c t) (eblk1 V c t)
      (outsAt1 V c (t.val - 1) (Nat.lt_of_le_of_lt (Nat.sub_le _ _) t.isLt)).2 := by
  by_cases h1 : t.val % 8 = 7
  · rw [outsAt1_C V c t h0 h1]
    dsimp only
    exact sout1_C_eq c (grid1.coords t) (ms1_0 t) (hs1_0 t) (ms1_1 t) (hs1_1 t) (ms1_2 t) (hs1_2 t) (ms1_3 t) (hs1_3 t) scM1 (Memref.isWhole_whole _) _ _ (iblk1 V c 0 t) (iblk1 V c 1 t) (iblk1 V c 2 t) _
  · rw [outsAt1_B V c t h0 h1]
    dsimp only
    exact sout1_B_eq c (grid1.coords t) (ms1_0 t) (hs1_0 t) (ms1_1 t) (hs1_1 t) (ms1_2 t) (hs1_2 t) (ms1_3 t) (hs1_3 t) scM1 (Memref.isWhole_whole _) _ _ (iblk1 V c 0 t) (iblk1 V c 1 t) (iblk1 V c 2 t) _

/-- Where a reduction ends the output block's buffer holds what the scratch holds. -/
theorem out1_last (c : Dev nD) (t : Fin cfg1.N) (h1 : t.val % 8 = 7) :
    (outsAt1 V c t.val t.isLt).1 = (outsAt1 V c t.val t.isLt).2 := by
  have h0 : ¬t.val % 8 = 0 := by omega
  rw [outsAt1_C V c t h0 h1]
  dsimp only
  rw [out1_C_eq, sout1_C_eq]

/-- THE RUNNING SUM. After position `n` the scratch holds, at `(p, q)`, zero plus the partial products of steps `0 … n % 8` of
    block row `n / 8`. -/
theorem scr1_eq (c : Dev nD) : ∀ (n : ℕ) (hn : n < cfg1.N) (p : Fin 1024) (q : Fin 128),
    (outsAt1 V c n hn).2 (ix2 p q) = (0 : EReal) + ∑ s ∈ Finset.range (n % 8 + 1), ∑ j ∈ Finset.range 1024,
      term1 (evB V c) (xsB V c) (cfB V c) (1024 * (n / 8) + p.val) q.val (1024 * s + j)
  | n, hn, p, q => by
    by_cases h0 : n % 8 = 0
    · have e := scr1_first V c ⟨n, hn⟩ h0
      dsimp only at e
      rw [e, k1_pay2_apply, k1_pay1_apply, step1]
      dsimp only
      rw [h0, Finset.sum_range_one]
    · have hpos : 0 < n := Nat.pos_of_ne_zero fun h => h0 (by rw [h])
      have e := scr1_next V c ⟨n, hn⟩ h0
      dsimp only at e
      rw [e, k1_pay2_apply, step1]
      dsimp only
      rw [scr1_eq c (n - 1) (Nat.lt_of_le_of_lt (Nat.sub_le _ _) hn) p q]
      have e1 : (n - 1) % 8 + 1 = n % 8 := by omega
      have e2 : (n - 1) / 8 = n / 8 := by omega
      rw [e1, e2]
      exact acc_step (0 : EReal) (fun s => ∑ j ∈ Finset.range 1024, term1 (evB V c) (xsB V c) (cfB V c) (1024 * (n / 8) + p.val) q.val (1024 * s + j)) (n % 8)
  termination_by n => n

/-! ## The result array -/

/-- What a step-7 point writes back is its block of the diffused signal. -/
theorem flushed1 (c : Dev nD) (t : Fin cfg1.N) (hf : (cfg1.win 3).flush t = true) :
    (dat1 V c).flushed 3 t = ((cfg1.win 3).blk t).view.read (Elt Ideal) (arrY (evB V c) (xsB V c) (cfB V c)) := by
  have h7 : t.val % 8 = 7 := (flush1_3 t).mp hf
  have hN : t.val < 64 := lt_of_lt_of_eq t.isLt N_1
  show (cfg1.win 3).cut (grid1.coords t) ((dat1 V c).after 3 t) = _
  rw [after1_3, out1_last V c t h7]
  funext y
  obtain ⟨p, q, rfl⟩ : ∃ (p : Fin 1024) (q : Fin 128), y = ix2 p q := ⟨y 0, y 1, eq_ix2 y⟩
  have hP : 1024 * (t.val / 8) + p.val < 8192 := by have := p.isLt; omega
  show (outsAt1 V c t.val t.isLt).2 (ix2 p q) = arrY (evB V c) (xsB V c) (cfB V c) (((cfg1.win 3).blk t).view.emb (ix2 p q))
  have he : ((cfg1.win 3).blk t).view.emb (ix2 p q) = (ix2 ⟨1024 * (t.val / 8) + p.val, hP⟩ q : (⟨2, ![8192, 128]⟩ : Shape).Idx) :=
    funext fun a => Fin.ext (by
      match a with
      | ⟨0, _⟩ => show win1_3.index t (0 : Fin 2) * 1024 + 1 * p.val = 1024 * (t.val / 8) + p.val; rw [(idx1_3 t).1]; omega
      | ⟨1, _⟩ => show win1_3.index t (1 : Fin 2) * 128 + 1 * q.val = q.val; rw [(idx1_3 t).2]; omega)
  rw [he, arrY_ix, scr1_eq V c t.val t.isLt p q, h7]
  exact blocks_specY (evB V c) (xsB V c) (cfB V c) ⟨_, hP⟩ q

/-- So region 1 leaves the diffused signal in its result array. -/
theorem final1 (c : Dev nD) : (dat1 V c).arrAt 3 cfg1.N = arrY (evB V c) (xsB V c) (cfB V c) :=
  (dat1 V c).arrAt_eq_of_cover 3 (arrY (evB V c) (xsB V c) (cfB V c)) (flushed1 V c) fun i => by
    -- every index of the result array is in the block the step-7 point of its block row writes back
    have hi0 : (i 0).val < 8192 := (i 0).isLt
    have hi1 : (i 1).val < 128 := (i 1).isLt
    have hN : cfg1.N = 64 := N_1
    have ht : 8 * ((i 0).val / 1024) + 7 < cfg1.N := by rw [hN]; omega
    have e := idx1_3 ⟨8 * ((i 0).val / 1024) + 7, ht⟩
    dsimp only at e
    refine ⟨⟨8 * ((i 0).val / 1024) + 7, ht⟩, (flush1_3 _).mpr (by dsimp only; omega), ?_⟩
    show i ∈ ((View.whole main_v25).slice (win1_3.rect ⟨8 * ((i 0).val / 1024) + 7, ht⟩)).set
    rw [View.set_slice_whole, Rect.mem_set_unit]
    intro a
    match a with
    | ⟨0, _⟩ =>
      show win1_3.index ⟨8 * ((i 0).val / 1024) + 7, ht⟩ (0 : Fin 2) * 1024 ≤ (i 0).val ∧ (i 0).val < win1_3.index ⟨8 * ((i 0).val / 1024) + 7, ht⟩ (0 : Fin 2) * 1024 + 1024
      rw [e.1]; omega
    | ⟨1, _⟩ =>
      show win1_3.index ⟨8 * ((i 0).val / 1024) + 7, ht⟩ (1 : Fin 2) * 128 ≤ (i 1).val ∧ (i 1).val < win1_3.index ⟨8 * ((i 0).val / 1024) + 7, ht⟩ (1 : Fin 2) * 128 + 128
      rw [e.2]; omega

end Cert.KernelIdeal.Hand

end
-- ==== Proof.Ideal.Result.lean ====
import proofs.«100021_j83854941487389_1_alg».proof.Proof.Ideal.Launch
import proofs.«100021_j83854941487389_1_alg».proof.Proof.Ideal.Value0
import proofs.«100021_j83854941487389_1_alg».proof.Proof.Ideal.Value1
import proofs.«100021_j83854941487389_1_alg».proof.Proof.Gen.ReferenceIdeal.Read

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen Cert.Diffusion

/-! # The idealized kernel's result, as one function of the arguments

Region 1 reads the eigenvector matrix as launched, the spectral coefficients region 0 left — themselves a function of the eigenvector
matrix, the signal and the mass vector as launched — and the coefficient table the host operations computed from the two eigenvalue
vectors and the diffusion times: the same 24 operations, in the same order, as the reference applies. -/

variable (m : (ℓ : Loc nD τ sig) → Buf (Elt Ideal) ℓ) (ρ : Dev nD → PrngReg)

/-- The coefficient table when the regions run is the reference's, as a function of the same three arguments: both programs compute it
    by the same host operations. -/
theorem coefs_eq (c : Dev nD) :
    (V1 m c (Proc.devRef .tc main_v23) : (⟨2, ![8192, 128]⟩ : Shape).Idx → EReal)
      = Cert.ReferenceIdeal.Read.val_main_v28 (F := Ideal) (m ((c.tc : Thread nD τ).loc main_arg4)) (m ((c.tc : Thread nD τ).loc main_arg5)) (m ((c.tc : Thread nD τ).loc main_arg7)) := by
  dsimp only [V1, V0, hostOps0]
  after_results
  rfl

/-- The kernel's result. -/
abbrev resultOf (c : Dev nD) : (⟨2, ![8192, 128]⟩ : Shape).Idx → EReal :=
  arrY (m ((c.tc : Thread nD τ).loc main_arg6))
    (arrX (m ((c.tc : Thread nD τ).loc main_arg6)) (m ((c.tc : Thread nD τ).loc main_arg0)) (m ((c.tc : Thread nD τ).loc main_arg3)))
    (Cert.ReferenceIdeal.Read.val_main_v28 (F := Ideal) (m ((c.tc : Thread nD τ).loc main_arg4)) (m ((c.tc : Thread nD τ).loc main_arg5)) (m ((c.tc : Thread nD τ).loc main_arg7)))

/-- The last boundary's contents of the result array: region 1's product over region 0's. -/
theorem result_eq (c : Dev nD) : W3 m c (Proc.devRef .tc main_v25) = resultOf m c := by
  rw [show W3 m c (Proc.devRef .tc main_v25) = (dat1 (E2 m) c).arrAt 3 cfg1.N from W3_arr m c 3, final1 (E2 m) c]
  have h6 : evB (E2 m) c = m ((c.tc : Thread nD τ).loc main_arg6) :=
    (W2_arr m c 0).trans (((dat0 (E1 m) c).arrAt_in 0 rfl _).trans ((A_eq0 (E1 m) c 0).trans (V1_of m c main_arg6 (by decide))))
  have hx : xsB (E2 m) c = arrX (m ((c.tc : Thread nD τ).loc main_arg6)) (m ((c.tc : Thread nD τ).loc main_arg0)) (m ((c.tc : Thread nD τ).loc main_arg3)) := by
    refine (W2_arr m c 3).trans ((final0 (E1 m) c).trans ?_)
    rw [show evA (E1 m) c = m ((c.tc : Thread nD τ).loc main_arg6) from V1_of m c main_arg6 (by decide),
      show xA (E1 m) c = m ((c.tc : Thread nD τ).loc main_arg0) from V1_of m c main_arg0 (by decide),
      show muA (E1 m) c = m ((c.tc : Thread nD τ).loc main_arg3) from V1_of m c main_arg3 (by decide)]
  have hc : cfB (E2 m) c = Cert.ReferenceIdeal.Read.val_main_v28 (F := Ideal) (m ((c.tc : Thread nD τ).loc main_arg4)) (m ((c.tc : Thread nD τ).loc main_arg5)) (m ((c.tc : Thread nD τ).loc main_arg7)) :=
    (W2_of_ne m c main_v23 (by decide)).trans (coefs_eq m c)
  rw [h6, hx, hc]

/-- The run, read: the result array at the diffused signal, the arguments unchanged. -/
theorem run_value : θ_run defs (onTc (τ := τ) (main (F := Ideal))) ⟨m, fun _ => 0, ρ⟩ (fun r => ∀ c : Dev nD,
      r.2.mem ((c.tc : Thread nD τ).loc main_v25) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c main_v25 (by decide)).trans (result_eq m c),
      (h c main_arg0 (by decide)).trans (W3_main_arg0 m c),
      (h c main_arg1 (by decide)).trans (W3_untouched m c main_arg1 (by decide) (by decide) (by decide)),
      (h c main_arg2 (by decide)).trans (W3_untouched m c main_arg2 (by decide) (by decide) (by decide)),
      (h c main_arg3 (by decide)).trans (W3_main_arg3 m c),
      (h c main_arg4 (by decide)).trans (W3_untouched m c main_arg4 (by decide) (by decide) (by decide)),
      (h c main_arg5 (by decide)).trans (W3_untouched m c main_arg5 (by decide) (by decide) (by decide)),
      (h c main_arg6 (by decide)).trans (W3_main_arg6 m c),
      (h c main_arg7 (by decide)).trans (W3_untouched m c main_arg7 (by decide) (by decide) (by decide))⟩)
    (run_all m ρ)

end Cert.KernelIdeal.Hand

end
-- ==== Proof.RefValue.lean ====
import proofs.«100021_j83854941487389_1_alg».proof.Proof.Gen.ReferenceIdeal.Run
import proofs.«100021_j83854941487389_1_alg».proof.Proof.Gen.ReferenceIdeal.Read
import proofs.«100021_j83854941487389_1_alg».proof.Proof.Spec

noncomputable section

open scoped BigOperators

namespace Cert.ReferenceIdeal.RefValue

open Idealize.ShloMosaic Idealize.ShloMosaic.ValueIdx
open Cert.ReferenceIdeal Cert.ReferenceIdeal.Gen Cert.ReferenceIdeal.Read Cert.Diffusion

/-! # The reference, index by index, on the extended reals

Its first product (the transposed eigenvector matrix against the mass-weighted signal) is the spectral coefficients `X`; its second
(the eigenvector matrix against the coefficient table times `X`, entry by entry) is the diffused signal over `X` and the table — the
two factors of each entry in the other order than the kernel multiplies them, which the extended reals' multiplication does not see. -/

/-- The reference's spectral coefficients. -/
theorem v4_eq (x0 : (⟨S8192x128, .f32⟩ : BufTy).Contents (Elt Ideal)) (x3 : (⟨S8192, .f32⟩ : BufTy).Contents (Elt Ideal))
    (x6 : (⟨S8192x8192, .f32⟩ : BufTy).Contents (Elt Ideal)) :
    val_main_v4 (F := Ideal) x0 x3 x6 = arrX x6 x0 x3 := by
  funext i
  obtain ⟨p, q, rfl⟩ : ∃ (p : Fin 8192) (q : Fin 128), i = ix2 p q := ⟨i 0, i 1, eq_ix2 i⟩
  rw [val_main_v4_apply, arrX_ix]
  unfold specX
  refine Finset.sum_congr rfl fun k _ => ?_
  rw [val_main_v0_apply, val_main_v3_apply, val_main_v2_apply, val_main_v1_apply]
  have e0 : idx_main_v0 (lidx_main_v4 (ix2 p q) k) = ix2 k p := funext fun a => Fin.ext (by
    match a with
    | ⟨0, _⟩ => rfl
    | ⟨1, _⟩ => rfl)
  have e1 : ridx_main_v4 (ix2 p q) k = ix2 k q := funext fun a => Fin.ext (by
    match a with
    | ⟨0, _⟩ => rfl
    | ⟨1, _⟩ => rfl)
  have e2 : idx_main_v1 (idx_main_v2 (ix2 k q)) = ix1 k := funext fun a => Fin.ext (by
    match a with
    | ⟨0, _⟩ => rfl)
  rw [e0, e1, e2]
  rfl

/-- The reference's result: the diffused signal over its spectral coefficients and its coefficient table. -/
theorem v30_eq (x0 : (⟨S8192x128, .f32⟩ : BufTy).Contents (Elt Ideal)) (x3 : (⟨S8192, .f32⟩ : BufTy).Contents (Elt Ideal))
    (x4 : (⟨S64, .f32⟩ : BufTy).Contents (Elt Ideal)) (x5 : (⟨S128, .f32⟩ : BufTy).Contents (Elt Ideal))
    (x6 : (⟨S8192x8192, .f32⟩ : BufTy).Contents (Elt Ideal)) (x7 : (⟨S2x128, .f32⟩ : BufTy).Contents (Elt Ideal)) :
    val_main_v30 (F := Ideal) x0 x3 x4 x5 x6 x7 = arrY x6 (arrX x6 x0 x3) (val_main_v28 (F := Ideal) x4 x5 x7) := by
  funext i
  obtain ⟨p, q, rfl⟩ : ∃ (p : Fin 8192) (q : Fin 128), i = ix2 p q := ⟨i 0, i 1, eq_ix2 i⟩
  rw [val_main_v30_apply, arrY_ix]
  unfold specY
  refine Finset.sum_congr rfl fun k _ => ?_
  rw [val_main_v29_apply, v4_eq]
  have el : lidx_main_v30 (ix2 p q) k = ix2 p k := funext fun a => Fin.ext (by
    match a with
    | ⟨0, _⟩ => rfl
    | ⟨1, _⟩ => rfl)
  have er : ridx_main_v30 (ix2 p q) k = ix2 k q := funext fun a => Fin.ext (by
    match a with
    | ⟨0, _⟩ => rfl
    | ⟨1, _⟩ => rfl)
  rw [el, er]
  show x6 (ix2 p k) * (val_main_v28 (F := Ideal) x4 x5 x7 (ix2 k q) * arrX x6 x0 x3 (ix2 k q))
    = x6 (ix2 p k) * (arrX x6 x0 x3 (ix2 k q) * val_main_v28 (F := Ideal) x4 x5 x7 (ix2 k q))
  rw [mul_comm (val_main_v28 (F := Ideal) x4 x5 x7 (ix2 k q))]

end Cert.ReferenceIdeal.RefValue

end
-- ==== Proof.lean ====
/- The certificate's claims assembled.

   The kernel computes spectral heat diffusion by two blocked matrix products: the spectral coefficients
   X[p, q] = ∑ r, E[r, p] · (x[r, q] · μ[r]) and the diffused signal Y[p, q] = ∑ r, E[p, r] · (X[r, q] · κ[r, q]), each accumulated over
   8 blocks of 1024 rows of the contracted axis in a scratch that is reset at the first block and copied out at the last; the coefficient
   table κ is computed by host operations the reference applies unchanged. The reference forms the same two products whole.
   Over the extended reals a blocked accumulation from zero is the whole sum (addition is associative), a change of float format is the
   identity, and the two factors of κ · X commute: so the two results agree index by index, with no use of the inputs' finiteness.
   The frames: each program runs to the end without a fault and leaves its eight arguments as launched — the kernel's two regions
   certified point by point with the accumulator's contents tracked in each region's invariant, the reference's run read back. -/
import proofs.«100021_j83854941487389_1_alg».proof.Defs
import proofs.«100021_j83854941487389_1_alg».proof.Proof.Gen.Kernel
import proofs.«100021_j83854941487389_1_alg».proof.Proof.Gen.KernelIdeal
import proofs.«100021_j83854941487389_1_alg».proof.Proof.Gen.ReferenceIdeal
import proofs.«100021_j83854941487389_1_alg».proof.Proof.Gen.Pre_finite_inputs
import proofs.«100021_j83854941487389_1_alg».proof.Proof.Gen.ReferenceIdeal.Run
import proofs.«100021_j83854941487389_1_alg».proof.Proof.Gen.ReferenceIdeal.Read
import proofs.«100021_j83854941487389_1_alg».proof.Proof.Bits.FrameClaim
import proofs.«100021_j83854941487389_1_alg».proof.Proof.Ideal.FrameClaim
import proofs.«100021_j83854941487389_1_alg».proof.Proof.Ideal.Result
import proofs.«100021_j83854941487389_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the diffused signal of the same arguments: the kernel's blocked sums are the reference's whole sums,
    and κ · X = X · κ entry by entry. -/
theorem algebraic : Cert.algebraic_KernelIdeal_ReferenceIdeal := by
  intro m ρ m' ρ' _ hagree
  refine ⟨fun c => Cert.KernelIdeal.Hand.resultOf m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, -, -, h3, h4, h5, h6, h7⟩ := hagree c
  refine (Cert.ReferenceIdeal.Read.val_main_v30_eq _ _ _ _ _ _).trans ?_
  rw [Cert.ReferenceIdeal.RefValue.v30_eq, h0, h3, h4, h5, h6, h7]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
